-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : IVec S1x1600000 32 := (extractStridedSlice S1x1600000 ![0, 0] · slices_S2x1600000_S1x1600000_0_0) main_arg1
  let main_v90 : IVec S1600000 32 := shapeCast S1600000 main_v89 shapeCasts_S1x1600000_S1600000
  let main_c_34 : IVec S_ 32 := constantI S_ 32 4294867296#32
  let main_v91 : IVec S1600000 32 := broadcastInDim S1600000 ![] bcast_S_S1600000 main_c_34
  let main_v92 : IVec S1600000 1 := cmpi .sge main_v90 main_v91
  let main_c_35 : IVec S_ 1 := constantI S_ 1 1#1
  let main_v93 : IVec S_ 1 := (fun x v => Host.reduce IntOp.andi x v reducesTo_S1600000_S_d0 h_S_) main_v92 main_c_35
  let main_v94 : IVec S_ 1 := andi main_v88 main_v93
  let main_v95 : IVec S1x1600000 32 := (extractStridedSlice S1x1600000 ![0, 0] · slices_S2x1600000_S1x1600000_0_0) main_arg1
  let main_v96 : IVec S1600000 32 := shapeCast S1600000 main_v95 shapeCasts_S1x1600000_S1600000
  let main_c_36 : IVec S_ 32 := constantI S_ 32 100000#32
  let main_v97 : IVec S1600000 32 := broadcastInDim S1600000 ![] bcast_S_S1600000 main_c_36
  let main_v98 : IVec S1600000 1 := cmpi .slt main_v96 main_v97
  let main_c_37 : IVec S_ 1 := constantI S_ 1 1#1
  let main_v99 : IVec S_ 1 := (fun x v => Host.reduce IntOp.andi x v reducesTo_S1600000_S_d0 h_S_) main_v98 main_c_37
  let main_v100 : IVec S_ 1 := andi main_v94 main_v99
  main_v100

def fn_part4 {F : FTy → Type} [FloatOps F] (main_arg1 : IVec S2x1600000 32) (main_arg15 : FVec F S128 .f32) (main_arg16 : FVec F S128x64 .f32) (main_arg17 : FVec F S64 .f32) (main_arg18 : FVec F S128x64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x1600000 32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x1600000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_arg17 main_arg18 main_v48 main_v49 main_v50

def fn_part1 {F : FTy → Type} [FloatOps F] (main_arg1 : IVec S2x1600000 32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S2000x128 : Shape := ⟨2, ![2000, 128]⟩
abbrev S1x128 : Shape := ⟨2, ![1, 128]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 128
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x128, .f32⟩
  | .hbm, ⟨54, _⟩ => ⟨S1600000x128, .i1⟩
  | .hbm, ⟨55, _⟩ => ⟨S_, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1, .i32⟩
  | .hbm, ⟨75, _⟩ => ⟨S_, .i32⟩
  | .hbm, ⟨76, _⟩ => ⟨S1600000x1, .i32⟩
  | .hbm, ⟨77, _⟩ => ⟨S1600000x1, .i1⟩
  | .hbm, ⟨78, _⟩ => ⟨S1x1, .i32⟩
  | .hbm, ⟨79, _⟩ => ⟨S1600000x1, .i32⟩
  | .hbm, ⟨80, _⟩ => ⟨S1600000x1, .i1⟩
  | .hbm, ⟨81, _⟩ => ⟨S1600000x1, .i1⟩
  | .hbm, ⟨82, _⟩ => ⟨S_, .i1⟩
  | .hbm, ⟨83, _⟩ => ⟨S1600000, .i1⟩
  | .hbm, ⟨84, _⟩ => ⟨S1600000x128, .f32⟩
  | .hbm, ⟨85, _⟩ => ⟨S1600000x128, .i1⟩
  | .hbm, ⟨86, _⟩ => ⟨S_, .f32⟩
  | .hbm, ⟨87, _⟩ => ⟨S1600000x128, .f32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1, .i32⟩
  | .hbm, ⟨106, _⟩ => ⟨S_, .i32⟩
  | .hbm, ⟨107, _⟩ => ⟨S1600000x1, .i32⟩
  | .hbm, ⟨108, _⟩ => ⟨S1600000x1, .i1⟩
  | .hbm, ⟨109, _⟩ => ⟨S1x1, .i32⟩
  | .hbm, ⟨110, _⟩ => ⟨S1600000x1, .i32⟩
  | .hbm, ⟨111, _⟩ => ⟨S1600000x1, .i1⟩
  | .hbm, ⟨112, _⟩ => ⟨S1600000x1, .i1⟩
  | .hbm, ⟨113, _⟩ => ⟨S_, .i1⟩
  | .hbm, ⟨114, _⟩ => ⟨S1600000, .i1⟩
  | .hbm, ⟨115, _⟩ => ⟨S1600000x128, .f32⟩
  | .hbm, ⟨116, _⟩ => ⟨S1600000x128, .i1⟩
  | .hbm, ⟨117, _⟩ => ⟨S_, .f32⟩
  | .hbm, ⟨118, _⟩ => ⟨S1600000x128, .f32⟩
  | .hbm, ⟨119, _⟩ => ⟨S1600000x128, .f32⟩
  | .hbm, ⟨120, _⟩ => ⟨S_, .f32⟩
  | .hbm, ⟨121, _⟩ => ⟨S100000x128, .f32⟩
  | .hbm, ⟨122, _⟩ => ⟨S1600000x1, .i32⟩
  | .hbm, ⟨123, _⟩ => ⟨S100000x128, .f32⟩
  | .hbm, ⟨124, _⟩ => ⟨S100000x1, .f32⟩
  | .hbm, ⟨125, _⟩ => ⟨S100000x128, .f32⟩
  | .hbm, ⟨126, _⟩ => ⟨S100000x128, .f32⟩
  | .hbm, ⟨127, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S64, .f32⟩
  | .local _ .vmem, ⟨32, _⟩ => ⟨S128x64, .f32⟩
  | .local _ .vmem, ⟨33, _⟩ => ⟨S2000x64, .f32⟩
  | .local _ .vmem, ⟨34, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v20 : Ref sig .tc := ⟨.hbm, 88, rfl⟩
abbrev main_cst_4 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v28 : Ref sig .tc := ⟨.hbm, 119, rfl⟩
abbrev main_cst_5 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S_, .f32⟩
  | 5 => ⟨S1600000, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_c_12 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Shapes.lean ====
/-
  The literal shapes this certificate's whole-array laws are stated over: N = 100000 nodes, E = 1600000 edges,
  128 features. Each is the same literal the printed programs abbreviate in their own namespaces.
-/
import Idealize.ShloMosaic.PureOps.Ideal

namespace Cert.Sage
open Idealize.ShloMosaic

abbrev S0 : Shape := ⟨0, ![]⟩
abbrev SN : Shape := ⟨1, ![100000]⟩
abbrev SNx1 : Shape := ⟨2, ![100000, 1]⟩
abbrev SNxF : Shape := ⟨2, ![100000, 128]⟩
abbrev SE : Shape := ⟨1, ![1600000]⟩
abbrev SEx1 : Shape := ⟨2, ![1600000, 1]⟩
abbrev SExF : Shape := ⟨2, ![1600000, 128]⟩
abbrev S1 : Shape := ⟨1, ![1]⟩
abbrev S1x1 : Shape := ⟨2, ![1, 1]⟩

end Cert.Sage
-- ==== Proof.Spec.lean ====
/-
  One SAGE layer, index by index, on the extended reals. Row i of the output is the row of neighbour means through
  the left weights, plus the node's own row through the right weights, plus the bias; a hidden layer then
  normalises with the running statistics, (y − rm) · (g · rsqrt(rv + ε)) + be, and clips below at 0.
  The sums run over the 128 input features. The grouping (left product + right product) + bias is the one the
  kernel body computes; any other grouping of the three terms is the same extended real, addition being
  commutative and associative there.
-/
import Idealize.ShloMosaic.PureOps.Ideal
import Idealize.ShloMosaic.PureOps.Ideal.Laws
import Idealize.ShloMosaic.Lib.ValueIdx
import proofs.«413179_j13039520710798_1_alg».proof.Proof.Shapes

noncomputable section
namespace Cert.Sage
open Idealize.ShloMosaic Idealize.ShloMosaic.ValueIdx

abbrev SF : Shape := ⟨1, ![128]⟩
abbrev SFxF : Shape := ⟨2, ![128, 128]⟩
abbrev SO : Shape := ⟨1, ![64]⟩
abbrev SFxO : Shape := ⟨2, ![128, 64]⟩
abbrev SNxO : Shape := ⟨2, ![100000, 64]⟩

/-- The variance offset ε both programs carry: the extended real of one f32 word. -/
def epsv : EReal := Ideal.ofBits .f32 0x3727C5AC#32

/-- A hidden layer at node r, feature j. -/
def hiddenAt (mean x : SNxF.Idx → EReal) (Wl Wr : SFxF.Idx → EReal) (b g be rm rv : SF.Idx → EReal)
    (r : Fin 100000) (j : Fin 128) : EReal :=
  max ((((∑ k : Fin 128, mean (ix2 r k) * Wl (ix2 k j)) + (∑ k : Fin 128, x (ix2 r k) * Wr (ix2 k j))) + b (ix1 j)
        - rm (ix1 j)) * (g (ix1 j) * Ideal.rsqrt (rv (ix1 j) + epsv)) + be (ix1 j)) 0

/-- A hidden layer as one array. -/
def hidden (mean x : SNxF.Idx → EReal) (Wl Wr : SFxF.Idx → EReal) (b g be rm rv : SF.Idx → EReal) : SNxF.Idx → EReal :=
  fun i => hiddenAt mean x Wl Wr b g be rm rv (i 0) (i 1)

/-- The output layer at node r, feature j: no normalisation, no clip. -/
def outAt (mean x : SNxF.Idx → EReal) (Wl Wr : SFxO.Idx → EReal) (b : SO.Idx → EReal) (r : Fin 100000) (j : Fin 64) : EReal :=
  ((∑ k : Fin 128, mean (ix2 r k) * Wl (ix2 k j)) + (∑ k : Fin 128, x (ix2 r k) * Wr (ix2 k j))) + b (ix1 j)

/-- The output layer as one array. -/
def outl (mean x : SNxF.Idx → EReal) (Wl Wr : SFxO.Idx → EReal) (b : SO.Idx → EReal) : SNxO.Idx → EReal :=
  fun i => outAt mean x Wl Wr b (i 0) (i 1)

end Cert.Sage
-- ==== Proof.Mean.lean ====
/-
  The neighbour mean as ONE function of a feature array and the edge list, and the three layers composed.
  The edge list's first row holds each edge's source, its second row the destination. A node's mean is the sum of
  its incoming edges' source rows (gathered at the wrapped source index, scattered by addition at the destination)
  divided by max(number of incoming edges, 1). `G` feeds each layer the mean of the layer before.
-/
import proofs.«413179_j13039520710798_1_alg».proof.ReferenceIdeal
import proofs.«413179_j13039520710798_1_alg».proof.Proof.Spec

noncomputable section
namespace Cert.Sage
open Idealize.ShloMosaic Cert.ReferenceIdeal Cert.ReferenceIdeal.Facts₀ Cert.ReferenceIdeal.Facts

variable [Cert.ReferenceIdeal.Facts]

/-- Each edge's source word: row 0 of the edge list. -/
def srcOf (ei : IVec S2x1600000 32) : IVec S1600000 32 :=
  shapeCast S1600000 (extractStridedSlice S1x1600000 ![0, 0] ei slices_S2x1600000_S1x1600000_0_0) shapeCasts_S1x1600000_S1600000

/-- Each edge's destination word: row 1 of the edge list. -/
def dstOf (ei : IVec S2x1600000 32) : IVec S1600000 32 :=
  shapeCast S1600000 (extractStridedSlice S1x1600000 ![1, 0] ei slices_S2x1600000_S1x1600000_1_0) shapeCasts_S1x1600000_S1600000

/-- The gather's start indices: the source, plus 100000 where negative, as a column. -/
def wrapOf (ei : IVec S2x1600000 32) : IVec S1600000x1 32 :=
  broadcastInDim S1600000x1 ![0] bcast_S1600000_S1600000x1_0
    (select (cmpi .slt (srcOf ei) (broadcastInDim S1600000 ![] bcast_S_S1600000 (constantI S_ 32 0#32)))
      (addi (srcOf ei) (broadcastInDim S1600000 ![] bcast_S_S1600000 (constantI S_ 32 100000#32))) (srcOf ei))

/-- The summed messages: source rows gathered, added into their destination rows from zero. -/
def aggRef (feat : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstOf ei))
    (Host.gather gather_S100000x128_S1600000x1_S1600000x128_1_0_n_n_0_1_1128 feat (wrapOf ei))

/-- The incoming-edge count of each node, as a float sum of ones. -/
def cntRef (ei : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dstOf ei))
    (broadcastInDim S1600000 ![] bcast_S_S1600000 (constant S_ .f32 0x3F800000#32))

/-- The neighbour mean: the summed messages over max(count, 1), row by row. -/
def meanRef (feat : FVec Ideal S100000x128 .f32) (ei : IVec S2x1600000 32) : FVec Ideal S100000x128 .f32 :=
  Host.divf (aggRef feat ei)
    (broadcastInDim S100000x128 ![0, 1] bcast_S100000x1_S100000x128_0_1
      (broadcastInDim S100000x1 ![0] bcast_S100000_S100000x1_0
        (maximumf (cntRef ei) (broadcastInDim S100000 ![] bcast_S_S100000 (constant S_ .f32 0x3F800000#32)))))

/-- The evident domain of the gather: every source word indexes the 100000 rows, from either end. -/
def InRange (ei : IVec S2x1600000 32) : Prop :=
  ∀ e : S1600000.Idx, -100000 ≤ (srcOf ei e).toInt ∧ (srcOf ei e).toInt < 100000

/-- The first hidden layer's output. -/
def H0 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) : FVec Ideal S100000x128 .f32 :=
  hidden (meanRef x0 x1) x0 x2 x4 x3 x5 x6 x7 x8

/-- The whole network: two hidden layers and the output layer, each fed the neighbour mean of the layer before.
    Arguments in @main's order: x, edge list, then per layer Wl, b, Wr (and g, be, rm, rv for the hidden ones). -/
def G (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (x16 : FVec Ideal S128x64 .f32) (x17 : FVec Ideal S64 .f32)
    (x18 : FVec Ideal S128x64 .f32) : FVec Ideal S100000x64 .f32 :=
  let h0 := H0 x0 x1 x2 x3 x4 x5 x6 x7 x8
  let h1 := hidden (meanRef h0 x1) h0 x9 x11 x10 x12 x13 x14 x15
  outl (meanRef h1 x1) h1 x16 x18 x17

end Cert.Sage
-- ==== Proof.MeanLaw.lean ====
/-
  The neighbour mean, two spellings. With a = the summed messages of a node and b = max(count, 1):
  multiplying by the reciprocal, a · (1 / b), and dividing, a / b, are one extended real, because b ≥ 1 is
  never zero and off zero the quotient x / y IS x · y⁻¹ (so 1 / b = b⁻¹ and both sides are a · b⁻¹).
  No finiteness of a or of the count is used.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import proofs.«413179_j13039520710798_1_alg».proof.Proof.Shapes

noncomputable section
namespace Cert.Sage
open Idealize.ShloMosaic

/-- A maximum with one is at least one, hence above zero, hence not zero: 0 < 1 ≤ max c 1. This holds for every
    extended real c, the two infinities included. -/
theorem max_one_ne_zero (c : EReal) : max c 1 ≠ 0 :=
  ne_of_gt (lt_of_lt_of_le zero_lt_one (le_max_right c 1))

/-- At one element: with the divisor b = max c 1 not zero, both 1 / b and a / b take the branch x · b⁻¹ of the
    quotient, so a · (1 / b) = a · (1 · b⁻¹) = a · b⁻¹ = a / b. -/
theorem mean_scalar (a c : EReal) : a * Ideal.div 1 (max c 1) = Ideal.div a (max c 1) :=
  Ideal.mul_one_div (max_one_ne_zero c)

/-- The whole-array law. At an index i = (r, j) the two broadcasts ([N] → [N × 1] → [N × 128]) read their operand
    at the same row r on both sides, and the scalar broadcast reads the one constant, whose bit pattern is the real
    number one; so the left side is agg i · (1 / max (cnt r) 1) and the right side is agg i / max (cnt r) 1, equal
    by the fact at one element. -/
theorem mean_law (h0 : S0.BroadcastsInDim SN (![] : Fin 0 → Fin SN.rank)) (h1 : SN.BroadcastsInDim SNx1 ![0])
    (h2 : SNx1.BroadcastsInDim SNxF ![0, 1])
    (agg : FVec Ideal SNxF .f32) (cnt : FVec Ideal SN .f32) :
    mulf agg (broadcastInDim SNxF ![0, 1] h2 (broadcastInDim SNx1 ![0] h1
      (Host.divf (broadcastInDim SN ![] h0 (constant S0 .f32 0x3F800000#32))
        (maximumf cnt (broadcastInDim SN ![] h0 (constant S0 .f32 0x3F800000#32))))))
    = Host.divf agg (broadcastInDim SNxF ![0, 1] h2 (broadcastInDim SNx1 ![0] h1
        (maximumf cnt (broadcastInDim SN ![] h0 (constant S0 .f32 0x3F800000#32))))) := by
  funext i
  simp only [mulf, Host.divf, maximumf, constant, broadcastInDim, Ideal.mulf_def, Ideal.hostDivf_def,
    Ideal.maximumf_def, Ideal.ofBits_def, Ideal.ofBits_one_f32]
  exact mean_scalar _ _

end Cert.Sage
-- ==== Proof.TakeMask.lean ====
/-
  The gather's in-bounds mask. A source index s with −100000 ≤ s < 100000 wraps (s + 100000 when s < 0, else s) to a
  word in [0, 99999], so the test 0 ≤ w ∧ w ≤ 99999 holds on every edge, its and-reduction along the unit axis is 1
  on every edge, and selecting by the mask's broadcast returns the gathered rows, never the fill.
-/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.ReduceAll
import proofs.«413179_j13039520710798_1_alg».proof.Proof.Shapes

noncomputable section
namespace Cert.Sage
open Idealize.ShloMosaic

/-- The wrapped gather index of an edge list: s + 100000 where s < 0, else s. -/
def wrapIdx (hb0 : S0.BroadcastsInDim SE (![] : Fin 0 → Fin SE.rank)) (src : IVec SE 32) : IVec SE 32 :=
  select (cmpi .slt src (broadcastInDim SE ![] hb0 (constantI S0 32 0#32)))
    (addi src (broadcastInDim SE ![] hb0 (constantI S0 32 100000#32))) src

/-- One word: if −100000 ≤ s < 100000 then w = (s + 100000 if s < 0, else s) passes both range tests
    0 ≤ w and w ≤ 99999. In the first case s + 100000 lies in [0, 100000), so the 32-bit sum does not wrap. -/
theorem wrap_word (s : BitVec 32) (hlo : -100000 ≤ s.toInt) (hhi : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have h0 : (0#32 : BitVec 32).toInt = 0 := by decide
  have h9 : (99999#32 : BitVec 32).toInt = 99999 := by decide
  have hK : (100000#32 : BitVec 32).toInt = 100000 := by decide
  rw [IntOp.andi_eq_one, IntOp.cmpi_sge, IntOp.cmpi_sle, h0, h9]
  unfold Scalar.select
  by_cases h : IntOp.cmpi .slt s 0#32 = 1
  · rw [if_pos h]
    have h' : IntOp.cmpi .slt s 0#32 = 1#1 := h
    rw [IntOp.cmpi_slt, h0] at h'
    have hadd : (IntOp.addi s 100000#32).toInt = s.toInt + 100000 := by
      unfold IntOp.addi
      rw [BitVec.toInt_add, hK]
      exact Int.bmod_eq_of_le_mul_two (by omega) (by omega)
    rw [hadd]
    omega
  · rw [if_neg h]
    have h' : ¬ IntOp.cmpi .slt s 0#32 = 1#1 := h
    rw [IntOp.cmpi_slt, h0] at h'
    omega

/-- An and-fold from 1 over a list whose every element is 1 is 1. -/
theorem foldl_andi_one {ι : Type} (x : ι → BitVec 1) (h : ∀ n, x n = 1#1) (l : List ι) :
    l.foldl (fun r n => IntOp.andi r (x n)) 1#1 = 1#1 := by
  induction l with
  | nil => rfl
  | cons a l ih =>
    rw [List.foldl_cons, h a]
    have h11 : IntOp.andi (1#1) (1#1) = 1#1 := by decide
    rw [h11]
    exact ih

theorem take_mask (hb0 : S0.BroadcastsInDim SE (![] : Fin 0 → Fin SE.rank)) (hbE : SE.BroadcastsInDim SEx1 ![0])
    (hb01 : S0.BroadcastsInDim SEx1 (![] : Fin 0 → Fin SEx1.rank)) (hb1 : S1.BroadcastsInDim S1x1 ![1])
    (hb11 : S1x1.BroadcastsInDim SEx1 ![0, 1]) (hred : SEx1.ReducesTo [1] SE) (hu : 0 < S0.numel)
    (hbF : SE.BroadcastsInDim SExF ![0])
    (src : IVec SE 32) (hlo : ∀ e, -100000 ≤ (src e).toInt) (hhi : ∀ e, (src e).toInt < 100000)
    (g nanv : FVec Ideal SExF .f32) :
    select (broadcastInDim SExF ![0] hbF
      (Host.reduce IntOp.andi
        (andi (cmpi .sge (broadcastInDim SEx1 ![0] hbE (wrapIdx hb0 src)) (broadcastInDim SEx1 ![] hb01 (constantI S0 32 0#32)))
              (cmpi .sle (broadcastInDim SEx1 ![0] hbE (wrapIdx hb0 src))
                (broadcastInDim SEx1 ![0, 1] hb11 (broadcastInDim S1x1 ![1] hb1 (constantI S1 32 99999#32)))))
        (constantI S0 1 1#1) hred hu)) g nanv = g := by
  -- every entry of the tested vector is 1
  have hX : ∀ n : SEx1.Idx,
      andi (cmpi .sge (broadcastInDim SEx1 ![0] hbE (wrapIdx hb0 src)) (broadcastInDim SEx1 ![] hb01 (constantI S0 32 0#32)))
           (cmpi .sle (broadcastInDim SEx1 ![0] hbE (wrapIdx hb0 src))
             (broadcastInDim SEx1 ![0, 1] hb11 (broadcastInDim S1x1 ![1] hb1 (constantI S1 32 99999#32)))) n = 1#1 := by
    intro n
    simp only [andi, cmpi, broadcastInDim, constantI, wrapIdx, select, addi]
    exact wrap_word _ (hlo _) (hhi _)
  -- so its and-reduction along the unit axis is 1 on every edge
  have hR : ∀ j : SE.Idx,
      Host.reduce IntOp.andi
        (andi (cmpi .sge (broadcastInDim SEx1 ![0] hbE (wrapIdx hb0 src)) (broadcastInDim SEx1 ![] hb01 (constantI S0 32 0#32)))
              (cmpi .sle (broadcastInDim SEx1 ![0] hbE (wrapIdx hb0 src))
                (broadcastInDim SEx1 ![0, 1] hb11 (broadcastInDim S1x1 ![1] hb1 (constantI S1 32 99999#32)))))
        (constantI S0 1 1#1) hred hu j = 1#1 := by
    intro j
    unfold Host.reduce
    exact foldl_andi_one _ (fun n => hX _) _
  -- and selecting by the all-ones broadcast returns the first operand
  funext i
  show Scalar.select (Host.reduce IntOp.andi _ (constantI S0 1 1#1) hred hu _) (g i) (nanv i) = g i
  rw [hR]
  rfl

end Cert.Sage
-- ==== Proof.MeanK.lean ====
/-
  The neighbour mean as the kernel's host code spells it, and that it is the reference's mean on the evident
  domain. The kernel's take fills a row with the fill word where the wrapped source index leaves [0, 99999] —
  nowhere, on the evident domain — and it multiplies the summed messages by the reciprocal 1 / max(count, 1)
  where the reference divides by max(count, 1): one extended real.
-/
import proofs.«413179_j13039520710798_1_alg».proof.Proof.Gen.KernelIdeal
import proofs.«413179_j13039520710798_1_alg».proof.Proof.Gen.ReferenceIdeal
import proofs.«413179_j13039520710798_1_alg».proof.Proof.Mean
import proofs.«413179_j13039520710798_1_alg».proof.Proof.MeanLaw
import proofs.«413179_j13039520710798_1_alg».proof.Proof.TakeMask

noncomputable section
namespace Cert.KernelIdeal.Sage
open Idealize.ShloMosaic Cert.KernelIdeal.Facts₀ Cert.KernelIdeal.Facts

/-- Each edge's source word. -/
def srcK (ei : IVec S2x1600000 32) : IVec S1600000 32 :=
  shapeCast S1600000 (extractStridedSlice S1x1600000 ![0, 0] ei slices_S2x1600000_S1x1600000_0_0) shapeCasts_S1x1600000_S1600000

/-- Each edge's destination word. -/
def dstK (ei : IVec S2x1600000 32) : IVec S1600000 32 :=
  shapeCast S1600000 (extractStridedSlice S1x1600000 ![1, 0] ei slices_S2x1600000_S1x1600000_1_0) shapeCasts_S1x1600000_S1600000

/-- The take's start indices: the source, plus 100000 where negative, as a column. -/
def idxK (ei : IVec S2x1600000 32) : IVec S1600000x1 32 :=
  broadcastInDim S1600000x1 ![0] bcast_S1600000_S1600000x1_0
    (select (cmpi .slt (srcK ei) (broadcastInDim S1600000 ![] bcast_S_S1600000 (constantI S_ 32 0#32)))
      (addi (srcK ei) (broadcastInDim S1600000 ![] bcast_S_S1600000 (constantI S_ 32 100000#32))) (srcK ei))

/-- The take's in-bounds mask, one bit per edge, spread over the features. -/
def maskK (ei : IVec S2x1600000 32) : IVec S1600000x128 1 :=
  broadcastInDim S1600000x128 ![0] bcast_S1600000_S1600000x128_0
    (Host.reduce IntOp.andi
      (andi (cmpi .sge (idxK ei) (broadcastInDim S1600000x1 ![] bcast_S_S1600000x1 (constantI S_ 32 0#32)))
            (cmpi .sle (idxK ei) (broadcastInDim S1600000x1 ![0, 1] bcast_S1x1_S1600000x1_0_1
              (broadcastInDim S1x1 ![1] bcast_S1_S1x1_1 (constantI S1 32 99999#32)))))
      (constantI S_ 1 1#1) reducesTo_S1600000x1_S1600000_d1 h_S_)

/-- The take: gathered source rows, the fill word where the mask is clear. -/
def takeK (feat : FVec Ideal S100000x128 .f32) (ei : IVec S2x1600000 32) : FVec Ideal S1600000x128 .f32 :=
  select (maskK ei) (Host.gather gather_S100000x128_S1600000x1_S1600000x128_1_0_n_n_0_1_1128 feat (idxK ei))
    (broadcastInDim S1600000x128 ![] bcast_S_S1600000x128 (constant S_ .f32 0x7FC00000#32))

/-- The reciprocal 1 / max(count, 1) of each node. -/
def invK (ei : IVec S2x1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstK ei))
        (broadcastInDim S1600000 ![] bcast_S_S1600000 (constant S_ .f32 0x3F800000#32)))
      (broadcastInDim S100000 ![] bcast_S_S100000 (constant S_ .f32 0x3F800000#32)))

/-- The kernel's neighbour mean: the summed taken rows times the reciprocal count. -/
def meanKer (feat : FVec Ideal S100000x128 .f32) (ei : IVec S2x1600000 32) : FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstK ei))
      (takeK feat ei))
    (broadcastInDim S100000x128 ![0, 1] bcast_S100000x1_S100000x128_0_1
      (broadcastInDim S100000x1 ![0] bcast_S100000_S100000x1_0 (invK ei)))

/-! The two programs name the same shapes (equal literals), the same shape records (equal fields) and the same side
    conditions (propositions), so the kernel's source, destination and wrapped index ARE the reference's. -/

theorem srcK_eq (ei : IVec S2x1600000 32) : srcK ei = Cert.Sage.srcOf ei := rfl
theorem dstK_eq (ei : IVec S2x1600000 32) : dstK ei = Cert.Sage.dstOf ei := rfl
theorem idxK_eq (ei : IVec S2x1600000 32) : idxK ei = Cert.Sage.wrapOf ei := rfl

/-- On the evident domain the take is the plain gather: every source word s has −100000 ≤ s < 100000, so its wrapped
    index lies in [0, 99999], the in-bounds mask is set on every edge, and the select never takes the fill word. -/
theorem takeK_eq (feat : FVec Ideal S100000x128 .f32) (ei : IVec S2x1600000 32) (h : Cert.Sage.InRange ei) :
    takeK feat ei = Host.gather gather_S100000x128_S1600000x1_S1600000x128_1_0_n_n_0_1_1128 feat (idxK ei) := by
  unfold takeK maskK idxK
  exact Cert.Sage.take_mask bcast_S_S1600000 bcast_S1600000_S1600000x1_0 bcast_S_S1600000x1 bcast_S1_S1x1_1
    bcast_S1x1_S1600000x1_0_1 reducesTo_S1600000x1_S1600000_d1 h_S_ bcast_S1600000_S1600000x128_0
    (srcK ei) (fun e => (h e).1) (fun e => (h e).2) _ _

/-- On the evident domain the kernel's mean is the reference's. The take becomes the gather, so the summed messages
    are the reference's sum a; the count c is the same scatter of ones; and a · (1 / max(c, 1)) = a / max(c, 1) at
    every index, the divisor being at least one. What remains is the reference's own term. -/
theorem meanKer_eq (feat : FVec Ideal S100000x128 .f32) (ei : IVec S2x1600000 32) (h : Cert.Sage.InRange ei) :
    meanKer feat ei = Cert.Sage.meanRef feat ei := by
  unfold meanKer invK
  rw [takeK_eq feat ei h]
  rw [Cert.Sage.mean_law bcast_S_S100000 bcast_S100000_S100000x1_0 bcast_S100000x1_S100000x128_0_1]
  rfl

end Cert.KernelIdeal.Sage
-- ==== Proof.HostK.lean ====
/-
  What each kernel region finds in its mean operand. Before the first region the host code has built the
  neighbour mean of the input features; between regions, the mean of the region before's output, from the same
  source, destination and reciprocal-count arrays, which no later operation overwrites and no region has among
  its arrays.
-/
import proofs.«413179_j13039520710798_1_alg».proof.Proof.Gen.KernelIdeal.Frame
import proofs.«413179_j13039520710798_1_alg».proof.Proof.MeanK

set_option maxRecDepth 16384
noncomputable section
namespace Cert.KernelIdeal.Sage
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

namespace Host

/-! ## The host stretches as terms

The take and the mean stretches occur three times each, over different buffers; each is read once, at any float
instance and from any contents, as one term of the buffers it reads. -/

section Terms
variable {F : FTy → Type} [FloatOps F]

/-- The take's start indices from the source words: the source, plus 100000 where negative, as a column. -/
def idxOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The take's in-bounds mask from the source words, one bit per edge, spread over the features. -/
def maskOf (src : IVec S1600000 32) : IVec S1600000x128 1 :=
  broadcastInDim S1600000x128 ![0] bcast_S1600000_S1600000x128_0
    (Host.reduce IntOp.andi
      (andi (cmpi .sge (idxOf src) (broadcastInDim S1600000x1 ![] bcast_S_S1600000x1 (constantI S_ 32 0#32)))
            (cmpi .sle (idxOf src) (broadcastInDim S1600000x1 ![0, 1] bcast_S1x1_S1600000x1_0_1
              (broadcastInDim S1x1 ![1] bcast_S1_S1x1_1 (constantI S1 32 99999#32)))))
      (constantI S_ 1 1#1) reducesTo_S1600000x1_S1600000_d1 h_S_)

/-- The take of a feature array at the source words: gathered rows, the fill word where the mask is clear. -/
def takeOf (feat : FVec F S100000x128 .f32) (src : IVec S1600000 32) : FVec F S1600000x128 .f32 :=
  select (maskOf src) (Host.gather gather_S100000x128_S1600000x1_S1600000x128_1_0_n_n_0_1_1128 feat (idxOf src))
    (broadcastInDim S1600000x128 ![] bcast_S_S1600000x128 (constant S_ .f32 0x7FC00000#32))

/-- The mean from the taken rows, the destination words and the reciprocal counts: the rows summed into their
    destinations from zero, times the reciprocal count of the row. -/
def meanOf (take : FVec F S1600000x128 .f32) (dst : IVec S1600000 32) (inv : FVec F S100000 .f32) :
    FVec F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      take)
    (broadcastInDim S100000x128 ![0, 1] bcast_S100000x1_S100000x128_0_1
      (broadcastInDim S100000x1 ![0] bcast_S100000_S100000x1_0 inv))

/-! ### The three take stretches: each leaves the take of its feature buffer at the source words

A module-local function's operations move their operands and results between the value's type and the buffer's
along an equation of types that holds by computation; each such transport is the identity. -/

/-- Moving a value to a buffer's type and back is the identity. -/
theorem ofBuf_toBuf {Val : EltTy → Type} {T : BufTy} (x : StableHlo.TRef sig T) (v : T.Contents Val) :
    x.ofBuf (x.toBuf v) = v := by
  obtain ⟨r, h, _, _⟩ := x
  subst h
  rfl

theorem take0_gen (Vv : Valuation τ sig (Elt F)) :
    StableHlo.after (hostOps0_1 (F := F)) Vv (Proc.devRef .tc main_v12)
      = takeOf (Vv (Proc.devRef .tc main_arg0)) (Vv (Proc.devRef .tc main_v1)) := by
  after_results_simp
  repeat rw [ofBuf_toBuf]
  dsimp only [StableHlo.TRef.ofBuf, StableHlo.TRef.toBuf]
  repeat rw [cast_eq]
  rfl

theorem take1_gen (Vv : Valuation τ sig (Elt F)) :
    StableHlo.after (hostOps1 (F := F)) Vv (Proc.devRef .tc main_v20)
      = takeOf (Vv (Proc.devRef .tc main_v19)) (Vv (Proc.devRef .tc main_v1)) := by
  after_results_simp
  repeat rw [ofBuf_toBuf]
  dsimp only [StableHlo.TRef.ofBuf, StableHlo.TRef.toBuf]
  repeat rw [cast_eq]
  rfl

theorem take2_gen (Vv : Valuation τ sig (Elt F)) :
    StableHlo.after (hostOps2 (F := F)) Vv (Proc.devRef .tc main_v28)
      = takeOf (Vv (Proc.devRef .tc main_v27)) (Vv (Proc.devRef .tc main_v1)) := by
  after_results_simp
  repeat rw [ofBuf_toBuf]
  dsimp only [StableHlo.TRef.ofBuf, StableHlo.TRef.toBuf]
  repeat rw [cast_eq]
  rfl

/-! ### The three mean stretches: each leaves the mean of its taken rows -/

theorem mean0_gen (Vv : Valuation τ sig (Elt F)) :
    StableHlo.after (hostOps0_2 (F := F)) Vv (Proc.devRef .tc main_v18)
      = meanOf (Vv (Proc.devRef .tc main_v12)) (Vv (Proc.devRef .tc main_v3)) (Vv (Proc.devRef .tc main_v11)) := by
  after_results
  rfl

theorem mean1_gen (Vv : Valuation τ sig (Elt F)) :
    StableHlo.after (hostOps1_1 (F := F)) Vv (Proc.devRef .tc main_v26)
      = meanOf (Vv (Proc.devRef .tc main_v20)) (Vv (Proc.devRef .tc main_v3)) (Vv (Proc.devRef .tc main_v11)) := by
  after_results
  rfl

theorem mean2_gen (Vv : Valuation τ sig (Elt F)) :
    StableHlo.after (hostOps2_1 (F := F)) Vv (Proc.devRef .tc main_v34)
      = meanOf (Vv (Proc.devRef .tc main_v28)) (Vv (Proc.devRef .tc main_v3)) (Vv (Proc.devRef .tc main_v11)) := by
  after_results
  rfl

/-! ### What a stretch does not write it leaves: the result buffers of each stretch, listed -/

/-- The buffers the first stretch writes. -/
abbrev wr0 : List (Ref sig .tc) :=
  [main_v0, main_v1, main_v2, main_v3, main_cst, main_v4, main_cst_0, main_v5, main_v6, main_v7, main_cst_1, main_v8,
   main_v9, main_cst_2, main_v10, main_v11]
theorem wr0_sub : (hostOps0 : List (HloOp τ sig (Elt F))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep0 (Vv : Valuation τ sig (Elt F)) {r : Ref sig .tc} (h : r ∉ wr0) :
    StableHlo.after (hostOps0 (F := F)) Vv (Proc.devRef .tc r) = Vv (Proc.devRef .tc r) :=
  StableHlo.after_of_writes_sub hostOps0 Vv wr0_sub h

/-- The buffers the first take writes. -/
abbrev wr0_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v12]
theorem wr0_1_sub : (hostOps0_1 : List (HloOp τ sig (Elt F))).Forall
    fun op => op.writes ⊆ (wr0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep0_1 (Vv : Valuation τ sig (Elt F)) {r : Ref sig .tc} (h : r ∉ wr0_1) :
    StableHlo.after (hostOps0_1 (F := F)) Vv (Proc.devRef .tc r) = Vv (Proc.devRef .tc r) :=
  StableHlo.after_of_writes_sub hostOps0_1 Vv wr0_1_sub h

/-- The buffers the first mean stretch writes. -/
abbrev wr0_2 : List (Ref sig .tc) :=
  [main_cst_3, main_v13, main_v14, main_v15, main_v16, main_v17, main_v18]
theorem wr0_2_sub : (hostOps0_2 : List (HloOp τ sig (Elt F))).Forall
    fun op => op.writes ⊆ (wr0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep0_2 (Vv : Valuation τ sig (Elt F)) {r : Ref sig .tc} (h : r ∉ wr0_2) :
    StableHlo.after (hostOps0_2 (F := F)) Vv (Proc.devRef .tc r) = Vv (Proc.devRef .tc r) :=
  StableHlo.after_of_writes_sub hostOps0_2 Vv wr0_2_sub h

/-- The buffers the second take writes. -/
abbrev wr1 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v20]
theorem wr1_sub : (hostOps1 : List (HloOp τ sig (Elt F))).Forall
    fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep1 (Vv : Valuation τ sig (Elt F)) {r : Ref sig .tc} (h : r ∉ wr1) :
    StableHlo.after (hostOps1 (F := F)) Vv (Proc.devRef .tc r) = Vv (Proc.devRef .tc r) :=
  StableHlo.after_of_writes_sub hostOps1 Vv wr1_sub h

/-- The buffers the second mean stretch writes. -/
abbrev wr1_1 : List (Ref sig .tc) :=
  [main_cst_4, main_v21, main_v22, main_v23, main_v24, main_v25, main_v26]
theorem wr1_1_sub : (hostOps1_1 : List (HloOp τ sig (Elt F))).Forall
    fun op => op.writes ⊆ (wr1_1.map (Proc.devRef (τ := τ) .tc)).toFinset := by
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep1_1 (Vv : Valuation τ sig (Elt F)) {r : Ref sig .tc} (h : r ∉ wr1_1) :
    StableHlo.after (hostOps1_1 (F := F)) Vv (Proc.devRef .tc r) = Vv (Proc.devRef .tc r) :=
  StableHlo.after_of_writes_sub hostOps1_1 Vv wr1_1_sub h

/-- The buffers the third take writes. -/
abbrev wr2 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v28]
theorem wr2_sub : (hostOps2 : List (HloOp τ sig (Elt F))).Forall
    fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem keep2 (Vv : Valuation τ sig (Elt F)) {r : Ref sig .tc} (h : r ∉ wr2) :
    StableHlo.after (hostOps2 (F := F)) Vv (Proc.devRef .tc r) = Vv (Proc.devRef .tc r) :=
  StableHlo.after_of_writes_sub hostOps2 Vv wr2_sub h

end Terms

/-! ## The kernel's spelling of the mean is these terms at the edge list's rows -/

theorem takeOf_srcK (feat : FVec Ideal S100000x128 .f32) (ei : IVec S2x1600000 32) :
    takeOf feat (srcK ei) = takeK feat ei := rfl
theorem meanOf_K (feat : FVec Ideal S100000x128 .f32) (ei : IVec S2x1600000 32) :
    meanOf (takeK feat ei) (dstK ei) (invK ei) = meanKer feat ei := rfl

/-! ## The source, destination and reciprocal-count arrays through the run

The first stretch writes them from the edge list; nothing after it writes them again, and no region has them among
its arrays. -/

theorem W1_v1 (c : Dev nD) :
    W1 m ρ c (Proc.devRef .tc main_v1) = srcK (m ((c : Thread nD τ).loc main_arg1)) := by
  show StableHlo.after hostOps0 _ (Proc.devRef .tc main_v1) = _
  after_results
  rfl
theorem W1_v3 (c : Dev nD) :
    W1 m ρ c (Proc.devRef .tc main_v3) = dstK (m ((c : Thread nD τ).loc main_arg1)) := by
  show StableHlo.after hostOps0 _ (Proc.devRef .tc main_v3) = _
  after_results
  rfl
theorem W1_v11 (c : Dev nD) :
    W1 m ρ c (Proc.devRef .tc main_v11) = invK (m ((c : Thread nD τ).loc main_arg1)) := by
  show StableHlo.after hostOps0 _ (Proc.devRef .tc main_v11) = _
  after_results
  rfl
theorem W1_arg0 (c : Dev nD) :
    W1 m ρ c (Proc.devRef .tc main_arg0) = m ((c : Thread nD τ).loc main_arg0) :=
  keep0 (r := main_arg0) _ (by decide)

theorem W2_v1 (c : Dev nD) : W2 m ρ c (Proc.devRef .tc main_v1) = srcK (m ((c : Thread nD τ).loc main_arg1)) :=
  (keep0_1 (r := main_v1) _ (by decide)).trans (W1_v1 m ρ c)
theorem W2_v3 (c : Dev nD) : W2 m ρ c (Proc.devRef .tc main_v3) = dstK (m ((c : Thread nD τ).loc main_arg1)) :=
  (keep0_1 (r := main_v3) _ (by decide)).trans (W1_v3 m ρ c)
theorem W2_v11 (c : Dev nD) : W2 m ρ c (Proc.devRef .tc main_v11) = invK (m ((c : Thread nD τ).loc main_arg1)) :=
  (keep0_1 (r := main_v11) _ (by decide)).trans (W1_v11 m ρ c)

theorem W4_v1 (c : Dev nD) : W4 m ρ c (Proc.devRef .tc main_v1) = srcK (m ((c : Thread nD τ).loc main_arg1)) :=
  (W4_of_ne m ρ c main_v1 (by decide)).trans ((keep0_2 (r := main_v1) _ (by decide)).trans (W2_v1 m ρ c))
theorem W4_v3 (c : Dev nD) : W4 m ρ c (Proc.devRef .tc main_v3) = dstK (m ((c : Thread nD τ).loc main_arg1)) :=
  (W4_of_ne m ρ c main_v3 (by decide)).trans ((keep0_2 (r := main_v3) _ (by decide)).trans (W2_v3 m ρ c))
theorem W4_v11 (c : Dev nD) : W4 m ρ c (Proc.devRef .tc main_v11) = invK (m ((c : Thread nD τ).loc main_arg1)) :=
  (W4_of_ne m ρ c main_v11 (by decide)).trans ((keep0_2 (r := main_v11) _ (by decide)).trans (W2_v11 m ρ c))

theorem W5_v1 (c : Dev nD) : W5 m ρ c (Proc.devRef .tc main_v1) = srcK (m ((c : Thread nD τ).loc main_arg1)) :=
  (keep1 (r := main_v1) _ (by decide)).trans (W4_v1 m ρ c)
theorem W5_v3 (c : Dev nD) : W5 m ρ c (Proc.devRef .tc main_v3) = dstK (m ((c : Thread nD τ).loc main_arg1)) :=
  (keep1 (r := main_v3) _ (by decide)).trans (W4_v3 m ρ c)
theorem W5_v11 (c : Dev nD) : W5 m ρ c (Proc.devRef .tc main_v11) = invK (m ((c : Thread nD τ).loc main_arg1)) :=
  (keep1 (r := main_v11) _ (by decide)).trans (W4_v11 m ρ c)

theorem W7_v1 (c : Dev nD) : W7 m ρ c (Proc.devRef .tc main_v1) = srcK (m ((c : Thread nD τ).loc main_arg1)) :=
  (W7_of_ne m ρ c main_v1 (by decide)).trans ((keep1_1 (r := main_v1) _ (by decide)).trans (W5_v1 m ρ c))
theorem W7_v3 (c : Dev nD) : W7 m ρ c (Proc.devRef .tc main_v3) = dstK (m ((c : Thread nD τ).loc main_arg1)) :=
  (W7_of_ne m ρ c main_v3 (by decide)).trans ((keep1_1 (r := main_v3) _ (by decide)).trans (W5_v3 m ρ c))
theorem W7_v11 (c : Dev nD) : W7 m ρ c (Proc.devRef .tc main_v11) = invK (m ((c : Thread nD τ).loc main_arg1)) :=
  (W7_of_ne m ρ c main_v11 (by decide)).trans ((keep1_1 (r := main_v11) _ (by decide)).trans (W5_v11 m ρ c))

theorem W8_v3 (c : Dev nD) : W8 m ρ c (Proc.devRef .tc main_v3) = dstK (m ((c : Thread nD τ).loc main_arg1)) :=
  (keep2 (r := main_v3) _ (by decide)).trans (W7_v3 m ρ c)
theorem W8_v11 (c : Dev nD) : W8 m ρ c (Proc.devRef .tc main_v11) = invK (m ((c : Thread nD τ).loc main_arg1)) :=
  (keep2 (r := main_v11) _ (by decide)).trans (W7_v11 m ρ c)

/-! ## The taken rows each mean stretch finds -/

theorem W2_v12 (c : Dev nD) :
    W2 m ρ c (Proc.devRef .tc main_v12)
      = takeK (m ((c : Thread nD τ).loc main_arg0)) (m ((c : Thread nD τ).loc main_arg1)) := by
  refine (take0_gen (W1 m ρ c)).trans ?_
  rw [W1_v1, W1_arg0]
  rfl
theorem W5_v20 (c : Dev nD) :
    W5 m ρ c (Proc.devRef .tc main_v20) = takeK (V4 m ρ c main_v19) (m ((c : Thread nD τ).loc main_arg1)) := by
  refine (take1_gen (W4 m ρ c)).trans ?_
  rw [W4_v1]
  rfl
theorem W8_v28 (c : Dev nD) :
    W8 m ρ c (Proc.devRef .tc main_v28) = takeK (V7 m ρ c main_v27) (m ((c : Thread nD τ).loc main_arg1)) := by
  refine (take2_gen (W7 m ρ c)).trans ?_
  rw [W7_v1]
  rfl

end Host

/-! ## Region 0's entry -/
theorem entry0_mean (c : Dev nD) :
    V3 m ρ c main_v18 = meanKer (m ((c : Thread nD τ).loc main_arg0)) (m ((c : Thread nD τ).loc main_arg1)) := by
  refine (Host.mean0_gen (W2 m ρ c)).trans ?_
  rw [Host.W2_v12, Host.W2_v3, Host.W2_v11]
  rfl

/-! ## Region 1's entry: the mean of region 0's output -/
theorem entry1_mean (c : Dev nD) :
    V6 m ρ c main_v26 = meanKer (V4 m ρ c main_v19) (m ((c : Thread nD τ).loc main_arg1)) := by
  refine (Host.mean1_gen (W5 m ρ c)).trans ?_
  rw [Host.W5_v20, Host.W5_v3, Host.W5_v11]
  rfl

/-! ## Region 2's entry: the mean of region 1's output -/
theorem entry2_mean (c : Dev nD) :
    V9 m ρ c main_v34 = meanKer (V7 m ρ c main_v27) (m ((c : Thread nD τ).loc main_arg1)) := by
  refine (Host.mean2_gen (W8 m ρ c)).trans ?_
  rw [Host.W8_v28, Host.W8_v3, Host.W8_v11]
  rfl

end Cert.KernelIdeal.Sage
-- ==== Proof.HostKeep.lean ====
/-
  Buffers no operation in between writes. The weight and statistics arguments are written by no host operation
  and by no region (a region reads them through an input window and leaves its input arrays as it found them), so
  every region finds them as launched; and the host code between two regions does not touch the earlier region's
  output array.
-/
import proofs.«413179_j13039520710798_1_alg».proof.Proof.Gen.KernelIdeal.Frame
import Idealize.ShloMosaic.PureOps.Ideal

set_option maxRecDepth 16384
noncomputable section
namespace Cert.KernelIdeal.Sage
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

namespace Keep

/-- A stretch of host operations none of which writes buffer b leaves b holding what it held: the stretch's
    operations are listed, each one's written buffer is a buffer other than b. -/
scoped macro "stretch_keeps " ops:ident " at " b:term : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Keep
open Keep

variable (m : (ℓ : Loc nD τ sig) → Buf (Elt Ideal) ℓ) (ρ : Dev nD → PrngReg)

/-! ## Region 0 finds its arguments as launched -/
theorem v3_arg0 (c : Dev nD) : V3 m ρ c main_arg0 = m ((c : Thread nD τ).loc main_arg0) :=
  calc W3 m ρ c (Proc.devRef .tc main_arg0)
    _ = W2 m ρ c (Proc.devRef .tc main_arg0) := by stretch_keeps hostOps0_2 at main_arg0
    _ = W1 m ρ c (Proc.devRef .tc main_arg0) := by stretch_keeps hostOps0_1 at main_arg0
    _ = W0 m ρ c (Proc.devRef .tc main_arg0) := by stretch_keeps hostOps0 at main_arg0
    _ = m ((c : Thread nD τ).loc main_arg0) := rfl
theorem v3_arg2 (c : Dev nD) : V3 m ρ c main_arg2 = m ((c : Thread nD τ).loc main_arg2) :=
  calc W3 m ρ c (Proc.devRef .tc main_arg2)
    _ = W2 m ρ c (Proc.devRef .tc main_arg2) := by stretch_keeps hostOps0_2 at main_arg2
    _ = W1 m ρ c (Proc.devRef .tc main_arg2) := by stretch_keeps hostOps0_1 at main_arg2
    _ = W0 m ρ c (Proc.devRef .tc main_arg2) := by stretch_keeps hostOps0 at main_arg2
    _ = m ((c : Thread nD τ).loc main_arg2) := rfl
theorem v3_arg3 (c : Dev nD) : V3 m ρ c main_arg3 = m ((c : Thread nD τ).loc main_arg3) :=
  calc W3 m ρ c (Proc.devRef .tc main_arg3)
    _ = W2 m ρ c (Proc.devRef .tc main_arg3) := by stretch_keeps hostOps0_2 at main_arg3
    _ = W1 m ρ c (Proc.devRef .tc main_arg3) := by stretch_keeps hostOps0_1 at main_arg3
    _ = W0 m ρ c (Proc.devRef .tc main_arg3) := by stretch_keeps hostOps0 at main_arg3
    _ = m ((c : Thread nD τ).loc main_arg3) := rfl
theorem v3_arg4 (c : Dev nD) : V3 m ρ c main_arg4 = m ((c : Thread nD τ).loc main_arg4) :=
  calc W3 m ρ c (Proc.devRef .tc main_arg4)
    _ = W2 m ρ c (Proc.devRef .tc main_arg4) := by stretch_keeps hostOps0_2 at main_arg4
    _ = W1 m ρ c (Proc.devRef .tc main_arg4) := by stretch_keeps hostOps0_1 at main_arg4
    _ = W0 m ρ c (Proc.devRef .tc main_arg4) := by stretch_keeps hostOps0 at main_arg4
    _ = m ((c : Thread nD τ).loc main_arg4) := rfl
theorem v3_arg5 (c : Dev nD) : V3 m ρ c main_arg5 = m ((c : Thread nD τ).loc main_arg5) :=
  calc W3 m ρ c (Proc.devRef .tc main_arg5)
    _ = W2 m ρ c (Proc.devRef .tc main_arg5) := by stretch_keeps hostOps0_2 at main_arg5
    _ = W1 m ρ c (Proc.devRef .tc main_arg5) := by stretch_keeps hostOps0_1 at main_arg5
    _ = W0 m ρ c (Proc.devRef .tc main_arg5) := by stretch_keeps hostOps0 at main_arg5
    _ = m ((c : Thread nD τ).loc main_arg5) := rfl
theorem v3_arg6 (c : Dev nD) : V3 m ρ c main_arg6 = m ((c : Thread nD τ).loc main_arg6) :=
  calc W3 m ρ c (Proc.devRef .tc main_arg6)
    _ = W2 m ρ c (Proc.devRef .tc main_arg6) := by stretch_keeps hostOps0_2 at main_arg6
    _ = W1 m ρ c (Proc.devRef .tc main_arg6) := by stretch_keeps hostOps0_1 at main_arg6
    _ = W0 m ρ c (Proc.devRef .tc main_arg6) := by stretch_keeps hostOps0 at main_arg6
    _ = m ((c : Thread nD τ).loc main_arg6) := rfl
theorem v3_arg7 (c : Dev nD) : V3 m ρ c main_arg7 = m ((c : Thread nD τ).loc main_arg7) :=
  calc W3 m ρ c (Proc.devRef .tc main_arg7)
    _ = W2 m ρ c (Proc.devRef .tc main_arg7) := by stretch_keeps hostOps0_2 at main_arg7
    _ = W1 m ρ c (Proc.devRef .tc main_arg7) := by stretch_keeps hostOps0_1 at main_arg7
    _ = W0 m ρ c (Proc.devRef .tc main_arg7) := by stretch_keeps hostOps0 at main_arg7
    _ = m ((c : Thread nD τ).loc main_arg7) := rfl
theorem v3_arg8 (c : Dev nD) : V3 m ρ c main_arg8 = m ((c : Thread nD τ).loc main_arg8) :=
  calc W3 m ρ c (Proc.devRef .tc main_arg8)
    _ = W2 m ρ c (Proc.devRef .tc main_arg8) := by stretch_keeps hostOps0_2 at main_arg8
    _ = W1 m ρ c (Proc.devRef .tc main_arg8) := by stretch_keeps hostOps0_1 at main_arg8
    _ = W0 m ρ c (Proc.devRef .tc main_arg8) := by stretch_keeps hostOps0 at main_arg8
    _ = m ((c : Thread nD τ).loc main_arg8) := rfl

/-! ## Region 1 finds region 0's output as region 0 left it, and its arguments as launched -/
theorem entry1_x (c : Dev nD) : V6 m ρ c main_v19 = V4 m ρ c main_v19 :=
  calc W6 m ρ c (Proc.devRef .tc main_v19)
    _ = W5 m ρ c (Proc.devRef .tc main_v19) := by stretch_keeps hostOps1_1 at main_v19
    _ = W4 m ρ c (Proc.devRef .tc main_v19) := by stretch_keeps hostOps1 at main_v19
theorem v6_arg9 (c : Dev nD) : V6 m ρ c main_arg9 = m ((c : Thread nD τ).loc main_arg9) :=
  calc W6 m ρ c (Proc.devRef .tc main_arg9)
    _ = W5 m ρ c (Proc.devRef .tc main_arg9) := by stretch_keeps hostOps1_1 at main_arg9
    _ = W4 m ρ c (Proc.devRef .tc main_arg9) := by stretch_keeps hostOps1 at main_arg9
    _ = W3 m ρ c (Proc.devRef .tc main_arg9) := W4_of_ne m ρ c main_arg9 (by decide)
    _ = W2 m ρ c (Proc.devRef .tc main_arg9) := by stretch_keeps hostOps0_2 at main_arg9
    _ = W1 m ρ c (Proc.devRef .tc main_arg9) := by stretch_keeps hostOps0_1 at main_arg9
    _ = W0 m ρ c (Proc.devRef .tc main_arg9) := by stretch_keeps hostOps0 at main_arg9
    _ = m ((c : Thread nD τ).loc main_arg9) := rfl
theorem v6_arg10 (c : Dev nD) : V6 m ρ c main_arg10 = m ((c : Thread nD τ).loc main_arg10) :=
  calc W6 m ρ c (Proc.devRef .tc main_arg10)
    _ = W5 m ρ c (Proc.devRef .tc main_arg10) := by stretch_keeps hostOps1_1 at main_arg10
    _ = W4 m ρ c (Proc.devRef .tc main_arg10) := by stretch_keeps hostOps1 at main_arg10
    _ = W3 m ρ c (Proc.devRef .tc main_arg10) := W4_of_ne m ρ c main_arg10 (by decide)
    _ = W2 m ρ c (Proc.devRef .tc main_arg10) := by stretch_keeps hostOps0_2 at main_arg10
    _ = W1 m ρ c (Proc.devRef .tc main_arg10) := by stretch_keeps hostOps0_1 at main_arg10
    _ = W0 m ρ c (Proc.devRef .tc main_arg10) := by stretch_keeps hostOps0 at main_arg10
    _ = m ((c : Thread nD τ).loc main_arg10) := rfl
theorem v6_arg11 (c : Dev nD) : V6 m ρ c main_arg11 = m ((c : Thread nD τ).loc main_arg11) :=
  calc W6 m ρ c (Proc.devRef .tc main_arg11)
    _ = W5 m ρ c (Proc.devRef .tc main_arg11) := by stretch_keeps hostOps1_1 at main_arg11
    _ = W4 m ρ c (Proc.devRef .tc main_arg11) := by stretch_keeps hostOps1 at main_arg11
    _ = W3 m ρ c (Proc.devRef .tc main_arg11) := W4_of_ne m ρ c main_arg11 (by decide)
    _ = W2 m ρ c (Proc.devRef .tc main_arg11) := by stretch_keeps hostOps0_2 at main_arg11
    _ = W1 m ρ c (Proc.devRef .tc main_arg11) := by stretch_keeps hostOps0_1 at main_arg11
    _ = W0 m ρ c (Proc.devRef .tc main_arg11) := by stretch_keeps hostOps0 at main_arg11
    _ = m ((c : Thread nD τ).loc main_arg11) := rfl
theorem v6_arg12 (c : Dev nD) : V6 m ρ c main_arg12 = m ((c : Thread nD τ).loc main_arg12) :=
  calc W6 m ρ c (Proc.devRef .tc main_arg12)
    _ = W5 m ρ c (Proc.devRef .tc main_arg12) := by stretch_keeps hostOps1_1 at main_arg12
    _ = W4 m ρ c (Proc.devRef .tc main_arg12) := by stretch_keeps hostOps1 at main_arg12
    _ = W3 m ρ c (Proc.devRef .tc main_arg12) := W4_of_ne m ρ c main_arg12 (by decide)
    _ = W2 m ρ c (Proc.devRef .tc main_arg12) := by stretch_keeps hostOps0_2 at main_arg12
    _ = W1 m ρ c (Proc.devRef .tc main_arg12) := by stretch_keeps hostOps0_1 at main_arg12
    _ = W0 m ρ c (Proc.devRef .tc main_arg12) := by stretch_keeps hostOps0 at main_arg12
    _ = m ((c : Thread nD τ).loc main_arg12) := rfl
theorem v6_arg13 (c : Dev nD) : V6 m ρ c main_arg13 = m ((c : Thread nD τ).loc main_arg13) :=
  calc W6 m ρ c (Proc.devRef .tc main_arg13)
    _ = W5 m ρ c (Proc.devRef .tc main_arg13) := by stretch_keeps hostOps1_1 at main_arg13
    _ = W4 m ρ c (Proc.devRef .tc main_arg13) := by stretch_keeps hostOps1 at main_arg13
    _ = W3 m ρ c (Proc.devRef .tc main_arg13) := W4_of_ne m ρ c main_arg13 (by decide)
    _ = W2 m ρ c (Proc.devRef .tc main_arg13) := by stretch_keeps hostOps0_2 at main_arg13
    _ = W1 m ρ c (Proc.devRef .tc main_arg13) := by stretch_keeps hostOps0_1 at main_arg13
    _ = W0 m ρ c (Proc.devRef .tc main_arg13) := by stretch_keeps hostOps0 at main_arg13
    _ = m ((c : Thread nD τ).loc main_arg13) := rfl
theorem v6_arg14 (c : Dev nD) : V6 m ρ c main_arg14 = m ((c : Thread nD τ).loc main_arg14) :=
  calc W6 m ρ c (Proc.devRef .tc main_arg14)
    _ = W5 m ρ c (Proc.devRef .tc main_arg14) := by stretch_keeps hostOps1_1 at main_arg14
    _ = W4 m ρ c (Proc.devRef .tc main_arg14) := by stretch_keeps hostOps1 at main_arg14
    _ = W3 m ρ c (Proc.devRef .tc main_arg14) := W4_of_ne m ρ c main_arg14 (by decide)
    _ = W2 m ρ c (Proc.devRef .tc main_arg14) := by stretch_keeps hostOps0_2 at main_arg14
    _ = W1 m ρ c (Proc.devRef .tc main_arg14) := by stretch_keeps hostOps0_1 at main_arg14
    _ = W0 m ρ c (Proc.devRef .tc main_arg14) := by stretch_keeps hostOps0 at main_arg14
    _ = m ((c : Thread nD τ).loc main_arg14) := rfl
theorem v6_arg15 (c : Dev nD) : V6 m ρ c main_arg15 = m ((c : Thread nD τ).loc main_arg15) :=
  calc W6 m ρ c (Proc.devRef .tc main_arg15)
    _ = W5 m ρ c (Proc.devRef .tc main_arg15) := by stretch_keeps hostOps1_1 at main_arg15
    _ = W4 m ρ c (Proc.devRef .tc main_arg15) := by stretch_keeps hostOps1 at main_arg15
    _ = W3 m ρ c (Proc.devRef .tc main_arg15) := W4_of_ne m ρ c main_arg15 (by decide)
    _ = W2 m ρ c (Proc.devRef .tc main_arg15) := by stretch_keeps hostOps0_2 at main_arg15
    _ = W1 m ρ c (Proc.devRef .tc main_arg15) := by stretch_keeps hostOps0_1 at main_arg15
    _ = W0 m ρ c (Proc.devRef .tc main_arg15) := by stretch_keeps hostOps0 at main_arg15
    _ = m ((c : Thread nD τ).loc main_arg15) := rfl

/-! ## Region 2 finds region 1's output as region 1 left it, and its arguments as launched -/
theorem entry2_x (c : Dev nD) : V9 m ρ c main_v27 = V7 m ρ c main_v27 :=
  calc W9 m ρ c (Proc.devRef .tc main_v27)
    _ = W8 m ρ c (Proc.devRef .tc main_v27) := by stretch_keeps hostOps2_1 at main_v27
    _ = W7 m ρ c (Proc.devRef .tc main_v27) := by stretch_keeps hostOps2 at main_v27
theorem v9_arg16 (c : Dev nD) : V9 m ρ c main_arg16 = m ((c : Thread nD τ).loc main_arg16) :=
  calc W9 m ρ c (Proc.devRef .tc main_arg16)
    _ = W8 m ρ c (Proc.devRef .tc main_arg16) := by stretch_keeps hostOps2_1 at main_arg16
    _ = W7 m ρ c (Proc.devRef .tc main_arg16) := by stretch_keeps hostOps2 at main_arg16
    _ = W6 m ρ c (Proc.devRef .tc main_arg16) := W7_of_ne m ρ c main_arg16 (by decide)
    _ = W5 m ρ c (Proc.devRef .tc main_arg16) := by stretch_keeps hostOps1_1 at main_arg16
    _ = W4 m ρ c (Proc.devRef .tc main_arg16) := by stretch_keeps hostOps1 at main_arg16
    _ = W3 m ρ c (Proc.devRef .tc main_arg16) := W4_of_ne m ρ c main_arg16 (by decide)
    _ = W2 m ρ c (Proc.devRef .tc main_arg16) := by stretch_keeps hostOps0_2 at main_arg16
    _ = W1 m ρ c (Proc.devRef .tc main_arg16) := by stretch_keeps hostOps0_1 at main_arg16
    _ = W0 m ρ c (Proc.devRef .tc main_arg16) := by stretch_keeps hostOps0 at main_arg16
    _ = m ((c : Thread nD τ).loc main_arg16) := rfl
theorem v9_arg17 (c : Dev nD) : V9 m ρ c main_arg17 = m ((c : Thread nD τ).loc main_arg17) :=
  calc W9 m ρ c (Proc.devRef .tc main_arg17)
    _ = W8 m ρ c (Proc.devRef .tc main_arg17) := by stretch_keeps hostOps2_1 at main_arg17
    _ = W7 m ρ c (Proc.devRef .tc main_arg17) := by stretch_keeps hostOps2 at main_arg17
    _ = W6 m ρ c (Proc.devRef .tc main_arg17) := W7_of_ne m ρ c main_arg17 (by decide)
    _ = W5 m ρ c (Proc.devRef .tc main_arg17) := by stretch_keeps hostOps1_1 at main_arg17
    _ = W4 m ρ c (Proc.devRef .tc main_arg17) := by stretch_keeps hostOps1 at main_arg17
    _ = W3 m ρ c (Proc.devRef .tc main_arg17) := W4_of_ne m ρ c main_arg17 (by decide)
    _ = W2 m ρ c (Proc.devRef .tc main_arg17) := by stretch_keeps hostOps0_2 at main_arg17
    _ = W1 m ρ c (Proc.devRef .tc main_arg17) := by stretch_keeps hostOps0_1 at main_arg17
    _ = W0 m ρ c (Proc.devRef .tc main_arg17) := by stretch_keeps hostOps0 at main_arg17
    _ = m ((c : Thread nD τ).loc main_arg17) := rfl
theorem v9_arg18 (c : Dev nD) : V9 m ρ c main_arg18 = m ((c : Thread nD τ).loc main_arg18) :=
  calc W9 m ρ c (Proc.devRef .tc main_arg18)
    _ = W8 m ρ c (Proc.devRef .tc main_arg18) := by stretch_keeps hostOps2_1 at main_arg18
    _ = W7 m ρ c (Proc.devRef .tc main_arg18) := by stretch_keeps hostOps2 at main_arg18
    _ = W6 m ρ c (Proc.devRef .tc main_arg18) := W7_of_ne m ρ c main_arg18 (by decide)
    _ = W5 m ρ c (Proc.devRef .tc main_arg18) := by stretch_keeps hostOps1_1 at main_arg18
    _ = W4 m ρ c (Proc.devRef .tc main_arg18) := by stretch_keeps hostOps1 at main_arg18
    _ = W3 m ρ c (Proc.devRef .tc main_arg18) := W4_of_ne m ρ c main_arg18 (by decide)
    _ = W2 m ρ c (Proc.devRef .tc main_arg18) := by stretch_keeps hostOps0_2 at main_arg18
    _ = W1 m ρ c (Proc.devRef .tc main_arg18) := by stretch_keeps hostOps0_1 at main_arg18
    _ = W0 m ρ c (Proc.devRef .tc main_arg18) := by stretch_keeps hostOps0 at main_arg18
    _ = m ((c : Thread nD τ).loc main_arg18) := rfl

end Cert.KernelIdeal.Sage
-- ==== Proof.Body0.lean ====
/-
  Region 0: what its output array holds when the pipeline has run, as one function of the arrays the region
  found. Each of the 50 grid points writes rows 2000·t … 2000·t + 1999 of the output from the same rows of the
  mean and feature arrays and the whole weight arrays; the 50 blocks tile the 100000 rows. At an entry (r, j) the body's value is the hidden layer's: both matrix products are sums over the 128 input features, the changes of float format are the identity.
-/
import proofs.«413179_j13039520710798_1_alg».proof.Proof.Gen.KernelIdeal.Frame
import proofs.«413179_j13039520710798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Sage.R0
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

/-! ## The body's value at an entry of a block -/

/-- The left operand of the product [2000,128] × [128,128] at output (i₀, i₁) and contraction index q: row i₀ … -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … column q; -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand: row q … -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … column i₁. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block's product with a weight matrix into the zero accumulator, at entry (r, j): the sum over the 128 input features. -/
theorem matmul_block_apply (A : FVec Ideal S2000x128 .bf16) (W : FVec Ideal S128x128 .bf16) (r : Fin 2000) (j : Fin 128) :
    matmul dot_S2000x128_S128x128_S2000x128_1_0_0_1_n_n none A W (constant S2000x128 .f32 0x00000000#32) (ix2 r j)
      = ∑ k : Fin 128, A (ix2 r k) * W (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- A feature vector viewed as one row and repeated over the 2000 rows of a block, at entry (r, j): its j-th entry. -/
theorem row_apply {α : Type} (v : S128.Idx → α) (r : Fin 2000) (j : Fin 128) :
    broadcastTo S2000x128 (shapeCast S1x128 v shapeCasts_S128_S1x128) broadcasts_S1x128_S2000x128 (ix2 r j) = v (ix1 j) := by
  rw [broadcastTo_1b_ab_apply, shapeCast_a_1a_apply]

/-- The body's value at entry (r, j) of a block: the hidden layer's formula over the loaded blocks. -/
theorem pay_apply (x0 x1 : Vec Ideal S2000x128 .f32) (Wl Wr : Vec Ideal S128x128 .f32) (b g rv rm be : Vec Ideal S128 .f32)
    (r : Fin 2000) (j : Fin 128) :
    k0_pay1 (F := Ideal) x0 x1 Wl Wr b g rv rm be (ix2 r j)
      = max ((((∑ k : Fin 128, x0 (ix2 r k) * Wl (ix2 k j)) + (∑ k : Fin 128, x1 (ix2 r k) * Wr (ix2 k j))) + b (ix1 j)
          - rm (ix1 j)) * (g (ix1 j) * Ideal.rsqrt (rv (ix1 j) + Cert.Sage.epsv)) + be (ix1 j)) 0 := by
  unfold k0_pay1
  simp only [maximumf_apply, addf_apply, mulf_apply, subf_apply, row_apply, matmul_block_apply, shapeCast_self, broadcast_apply, truncf_apply]
  rw [show (FloatOps.ofBits FTy.f32 0#32 : Ideal .f32) = (0 : EReal) from Ideal.ofBits_zero_f32]
  rfl

/-! ## The windows' index maps over the grid -/

/-- The zero offsets of a whole-block access, at rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 50 grid points: the mean, feature and output windows sit at block row t,
    block column 0; every weight and vector window at block 0. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 1) = 0 ∧ win0_8.index t (0 : Fin 1) = 0 :=
  (by decide +kernel : ∀ t : Fin grid0.N, _)

/-- A grid point is one of 50. -/
theorem point_lt (t : Fin cfg0.N) : t.val < 50 := lt_of_lt_of_eq t.isLt N_0

/-- Row r of the block at grid point t is row 2000·t + r of the array. -/
def rowOf (t : Fin cfg0.N) (r : Fin 2000) : Fin 100000 := ⟨2000 * t.val + r.val, by have := point_lt t; have := r.isLt; omega⟩

/-- Entry (r, j) of the output block at point t is entry (2000·t + r, j) of the output array; -/
theorem emb9 (t : Fin cfg0.N) (r : Fin 2000) (j : Fin 128) :
    ((cfg0.win 9).blk t).view.emb (ix2 r j) = (ix2 (rowOf t r) j : S100000x128.Idx) := by
  obtain ⟨e0, e1, -⟩ := idx_facts t
  funext a; apply Fin.ext
  match a with
  | ⟨0, _⟩ => show win0_9.index t (0 : Fin 2) * 2000 + 1 * r.val = 2000 * t.val + r.val; omega
  | ⟨1, _⟩ => show win0_9.index t (1 : Fin 2) * 128 + 1 * j.val = j.val; omega

/-- the mean and feature blocks move with it, -/
theorem emb0 (t : Fin cfg0.N) (r : Fin 2000) (k : Fin 128) :
    ((cfg0.win 0).blk t).view.emb (ix2 r k) = (ix2 (rowOf t r) k : S100000x128.Idx) := by
  obtain ⟨-, -, e0, e1, -⟩ := idx_facts t
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

theorem emb1 (t : Fin cfg0.N) (r : Fin 2000) (k : Fin 128) :
    ((cfg0.win 1).blk t).view.emb (ix2 r k) = (ix2 (rowOf t r) k : S100000x128.Idx) := by
  obtain ⟨-, -, -, -, e0, e1, -⟩ := idx_facts t
  funext a; apply Fin.ext
  match a with
  | ⟨0, _⟩ => show win0_1.index t (0 : Fin 2) * 2000 + 1 * r.val = 2000 * t.val + r.val; omega
  | ⟨1, _⟩ => show win0_1.index t (1 : Fin 2) * 128 + 1 * k.val = k.val; omega

/-- and each weight matrix and feature vector is its whole array at every point. -/
theorem emb2 (t : Fin cfg0.N) (k j : Fin 128) :
    ((cfg0.win 2).blk t).view.emb (ix2 k j) = (ix2 k j : S128x128.Idx) := by
  obtain ⟨-, -, -, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * j.val = j.val; omega

theorem emb4 (t : Fin cfg0.N) (k j : Fin 128) :
    ((cfg0.win 4).blk t).view.emb (ix2 k j) = (ix2 k j : S128x128.Idx) := by
  obtain ⟨-, -, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * j.val = j.val; omega

theorem emb3 (t : Fin cfg0.N) (j : Fin 128) : ((cfg0.win 3).blk t).view.emb (ix1 j) = (ix1 j : S128.Idx) := by
  obtain ⟨-, -, -, -, -, -, -, -, e0, -⟩ := idx_facts t
  funext a; apply Fin.ext
  match a with
  | ⟨0, _⟩ => show win0_3.index t (0 : Fin 1) * 128 + 1 * j.val = j.val; omega

theorem emb5 (t : Fin cfg0.N) (j : Fin 128) : ((cfg0.win 5).blk t).view.emb (ix1 j) = (ix1 j : S128.Idx) := by
  obtain ⟨-, -, -, -, -, -, -, -, -, -, -, e0, -⟩ := idx_facts t
  funext a; apply Fin.ext
  match a with
  | ⟨0, _⟩ => show win0_5.index t (0 : Fin 1) * 128 + 1 * j.val = j.val; omega

theorem emb6 (t : Fin cfg0.N) (j : Fin 128) : ((cfg0.win 6).blk t).view.emb (ix1 j) = (ix1 j : S128.Idx) := by
  obtain ⟨-, -, -, -, -, -, -, -, -, -, -, -, e0, -⟩ := idx_facts t
  funext a; apply Fin.ext
  match a with
  | ⟨0, _⟩ => show win0_6.index t (0 : Fin 1) * 128 + 1 * j.val = j.val; omega

theorem emb7 (t : Fin cfg0.N) (j : Fin 128) : ((cfg0.win 7).blk t).view.emb (ix1 j) = (ix1 j : S128.Idx) := by
  obtain ⟨-, -, -, -, -, -, -, -, -, -, -, -, -, e0, -⟩ := idx_facts t
  funext a; apply Fin.ext
  match a with
  | ⟨0, _⟩ => show win0_7.index t (0 : Fin 1) * 128 + 1 * j.val = j.val; omega

theorem emb8 (t : Fin cfg0.N) (j : Fin 128) : ((cfg0.win 8).blk t).view.emb (ix1 j) = (ix1 j : S128.Idx) := by
  obtain ⟨-, -, -, -, -, -, -, -, -, -, -, -, -, -, e0⟩ := idx_facts t
  funext a; apply Fin.ext
  match a with
  | ⟨0, _⟩ => show win0_8.index t (0 : Fin 1) * 128 + 1 * j.val = j.val; omega

section Blocks
variable (V : (c : Dev nD) → (b : Ref sig .tc) → Buf (Elt Ideal) ((c : Thread nD τ).loc b)) (c : Dev nD) (t : Fin cfg0.N)

/-- So each window's block at point t reads its array: rows 2000·t + r of the mean and feature arrays, the weight
    matrices and feature vectors entry for entry. -/
theorem blk0_apply (r : Fin 2000) (k : Fin 128) : iblk0 (F := Ideal) V c 0 t (ix2 r k) = V c main_v18 (ix2 (rowOf t r) k) := by
  show V c main_v18 (((cfg0.win 0).blk t).view.emb (ix2 r k)) = _
  rw [emb0]
theorem blk1_apply (r : Fin 2000) (k : Fin 128) : iblk0 (F := Ideal) V c 1 t (ix2 r k) = V c main_arg0 (ix2 (rowOf t r) k) := by
  show V c main_arg0 (((cfg0.win 1).blk t).view.emb (ix2 r k)) = _
  rw [emb1]
theorem blk2_apply (k j : Fin 128) : iblk0 (F := Ideal) V c 2 t (ix2 k j) = V c main_arg2 (ix2 k j) := by
  show V c main_arg2 (((cfg0.win 2).blk t).view.emb (ix2 k j)) = _
  rw [emb2]
theorem blk4_apply (k j : Fin 128) : iblk0 (F := Ideal) V c 4 t (ix2 k j) = V c main_arg4 (ix2 k j) := by
  show V c main_arg4 (((cfg0.win 4).blk t).view.emb (ix2 k j)) = _
  rw [emb4]
theorem blk3_apply (j : Fin 128) : iblk0 (F := Ideal) V c 3 t (ix1 j) = V c main_arg3 (ix1 j) := by
  show V c main_arg3 (((cfg0.win 3).blk t).view.emb (ix1 j)) = _
  rw [emb3]
theorem blk5_apply (j : Fin 128) : iblk0 (F := Ideal) V c 5 t (ix1 j) = V c main_arg5 (ix1 j) := by
  show V c main_arg5 (((cfg0.win 5).blk t).view.emb (ix1 j)) = _
  rw [emb5]
theorem blk6_apply (j : Fin 128) : iblk0 (F := Ideal) V c 6 t (ix1 j) = V c main_arg6 (ix1 j) := by
  show V c main_arg6 (((cfg0.win 6).blk t).view.emb (ix1 j)) = _
  rw [emb6]
theorem blk7_apply (j : Fin 128) : iblk0 (F := Ideal) V c 7 t (ix1 j) = V c main_arg7 (ix1 j) := by
  show V c main_arg7 (((cfg0.win 7).blk t).view.emb (ix1 j)) = _
  rw [emb7]
theorem blk8_apply (j : Fin 128) : iblk0 (F := Ideal) V c 8 t (ix1 j) = V c main_arg8 (ix1 j) := by
  show V c main_arg8 (((cfg0.win 8).blk t).view.emb (ix1 j)) = _
  rw [emb8]

end Blocks

/-! ## From the blocks to the array -/

section Final
variable (V : (c : Dev nD) → (b : Ref sig .tc) → Buf (Elt Ideal) ((c : Thread nD τ).loc b)) (c : Dev nD)

/-- What grid point t writes back is block t of the hidden layer of the arrays the region found. -/
theorem flushed_eq (t : Fin cfg0.N) :
    (dat0 (F := Ideal) V c).flushed 9 t = ((cfg0.win 9).blk t).view.read (Elt Ideal)
      (Cert.Sage.hidden (V c main_v18) (V c main_arg0) (V c main_arg2) (V c main_arg4) (V c main_arg3)
        (V c main_arg5) (V c main_arg6) (V c main_arg7) (V c main_arg8)) := by
  show (cfg0.win 9).cut (grid0.coords t) ((dat0 V c).after 9 t) = _
  rw [after0_9]
  unfold out0_9
  rw [View.canon_unit_zero hz2]
  simp only [View.ld_unit_zero (S := S2000x128) hz2, View.ld_unit_zero (S := S128x128) hz2, View.ld_unit_zero (S := S128) hz1]
  funext y
  obtain ⟨r, j, rfl⟩ : ∃ (r : Fin 2000) (j : Fin 128), y = ix2 r j := ⟨y 0, y 1, eq_ix2 y⟩
  show k0_pay1 (F := Ideal) (iblk0 V c 0 t) (iblk0 V c 1 t) (iblk0 V c 2 t) (iblk0 V c 4 t) (iblk0 V c 3 t) (iblk0 V c 5 t)
      (iblk0 V c 8 t) (iblk0 V c 7 t) (iblk0 V c 6 t) (ix2 r j)
    = Cert.Sage.hidden (V c main_v18) (V c main_arg0) (V c main_arg2) (V c main_arg4) (V c main_arg3)
        (V c main_arg5) (V c main_arg6) (V c main_arg7) (V c main_arg8) (((cfg0.win 9).blk t).view.emb (ix2 r j))
  rw [pay_apply, emb9]
  simp only [blk0_apply, blk1_apply, blk2_apply, blk3_apply, blk4_apply, blk5_apply, blk6_apply, blk7_apply, blk8_apply]
  rfl

/-- An index of the array is in point t's block iff each coordinate is in the block's range on its axis. -/
theorem mem_blk (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v19).slice (win0_9.rect t)).set ↔ _
  rw [View.set_slice_whole, Rect.mem_set_unit]
  exact Iff.rfl

/-- Row i of the array lies in the block of grid point ⌊i / 2000⌋, and every point writes its block back. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 2000, lt_of_lt_of_eq (by omega) N_0.symm⟩
  obtain ⟨e0, e1, -⟩ := idx_facts t
  have ht : t.val = (i 0).val / 2000 := rfl
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

end Final

end Cert.KernelIdeal.Sage.R0

namespace Cert.KernelIdeal.Sage
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- Every point writes its block of the hidden layer and the blocks cover the array: the array ends as the hidden layer. -/
theorem region0_arr (V : (c : Dev nD) → (b : Ref sig .tc) → Buf (Elt Ideal) ((c : Thread nD τ).loc b)) (c : Dev nD) :
    (dat0 (F := Ideal) V c).arrAt 9 cfg0.N
      = Cert.Sage.hidden (V c main_v18) (V c main_arg0) (V c main_arg2) (V c main_arg4) (V c main_arg3)
          (V c main_arg5) (V c main_arg6) (V c main_arg7) (V c main_arg8) :=
  (dat0 (F := Ideal) V c).arrAt_eq_of_cover 9 _ (fun t _ => R0.flushed_eq V c t) R0.covered

end Cert.KernelIdeal.Sage
-- ==== Proof.Body1.lean ====
/-
  Region 1: what its output array holds when the pipeline has run, as one function of the arrays the region
  found. Each of the 50 grid points writes rows 2000·t … 2000·t + 1999 of the output from the same rows of the
  mean and feature arrays and the whole weight arrays; the 50 blocks tile the 100000 rows. At an entry (r, j) the body's value is the hidden layer's: both matrix products are sums over the 128 input features, the changes of float format are the identity.
-/
import proofs.«413179_j13039520710798_1_alg».proof.Proof.Gen.KernelIdeal.Frame
import proofs.«413179_j13039520710798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

namespace Cert.KernelIdeal.Sage.R1

/-! ## The matrix product's operand indices: at output entry (r, j) and contraction coordinate k the left
operand is read at (r, k), the right at (k, j). -/

theorem dotL_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dotL_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dotR_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dotR_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000×128 block with a 128×128 matrix into the zero block, at entry (r, j): the sum over the 128
    shared coordinates. -/
theorem matmul_entry {φ₁ φ₂ : FTy} (lhs : FVec Ideal S2000x128 φ₁) (rhs : FVec Ideal S128x128 φ₂) (r : Fin 2000) (j : Fin 128) :
    matmul dot_S2000x128_S128x128_S2000x128_1_0_0_1_n_n none lhs rhs (constant S2000x128 .f32 0x00000000#32) (ix2 r j)
      = ∑ k : Fin 128, lhs (ix2 r k) * rhs (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact dotL_row _ _
    | ⟨1, _⟩ => exact (dotL_col _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (dotR_row _ _).trans hk
    | ⟨1, _⟩ => exact dotR_col _ _)
  rw [el, er]

/-- A reciprocal square root of a vector, at an index. -/
theorem rsqrt_entry {s : Shape} {φ : FTy} (a : FVec Ideal s φ) (i : s.Idx) : rsqrt a i = Ideal.rsqrt (a i) := rfl

/-- The region's payload at entry (r, j) of the block: the two products summed over the 128 features, plus the bias,
    normalised by the running statistics, clipped below at 0. The changes of float format and the identity shape
    cast read their operand; a row vector spread over the 2000 rows reads its entry j. -/
theorem pay_entry (x0 x1 : Vec Ideal S2000x128 .f32) (Wl Wr : Vec Ideal S128x128 .f32) (b g rv rm be : Vec Ideal S128 .f32)
    (r : Fin 2000) (j : Fin 128) :
    k1_pay1 (F := Ideal) x0 x1 Wl Wr b g rv rm be (ix2 r j)
      = max ((((∑ k : Fin 128, x0 (ix2 r k) * Wl (ix2 k j)) + (∑ k : Fin 128, x1 (ix2 r k) * Wr (ix2 k j))) + b (ix1 j)
          - rm (ix1 j)) * (g (ix1 j) * Ideal.rsqrt (rv (ix1 j) + Cert.Sage.epsv)) + be (ix1 j)) 0 := by
  unfold k1_pay1
  simp only [maximumf_apply, addf_apply, subf_apply, mulf_apply, broadcast_apply, matmul_entry, truncf_apply,
    shapeCast_self, broadcastTo_1b_ab_apply, shapeCast_a_1a_apply, rsqrt_entry]
  exact congrArg₂ max rfl Ideal.ofBits_zero_f32

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 50 grid points: the mean, feature and output windows sit at block (t, 0); the
    weight matrices and the five vectors at block 0 throughout. -/
theorem block_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_3.index t (0 : Fin 1) = 0 ∧ win1_5.index t (0 : Fin 1) = 0 ∧ win1_6.index t (0 : Fin 1) = 0
    ∧ win1_7.index t (0 : Fin 1) = 0 ∧ win1_8.index t (0 : Fin 1) = 0 :=
  (by decide +kernel : ∀ t : Fin grid1.N, _)

/-- Row r of grid point t's block is row 2000·t + r of the array. -/
def rowOf (t : Fin cfg1.N) (r : Fin 2000) : Fin 100000 :=
  ⟨t.val * 2000 + r.val, by have h : t.val < grid1.N := t.isLt; rw [N_1] at h; omega⟩

theorem rowOf_val (t : Fin cfg1.N) (r : Fin 2000) : (rowOf t r).val = t.val * 2000 + r.val := rfl

/-- The mean window's block at point t, at (r, k): the array's entry (2000·t + r, k). -/
theorem blk_mean (c : Dev nD) (t : Fin cfg1.N) (r : Fin 2000) (k : Fin 128) :
    iblk1 (F := Ideal) V c 0 t (ix2 r k) = V c main_v26 (ix2 (rowOf t r) k) := by
  show V c main_v26 (((cfg1.win 0).blk t).view.emb (ix2 r k)) = _
  congr 1
  funext a; apply Fin.ext
  obtain ⟨e0, e1, -⟩ := block_index t
  match a with
  | ⟨0, _⟩ => show win1_0.index t (0 : Fin 2) * 2000 + 1 * r.val = t.val * 2000 + r.val; omega
  | ⟨1, _⟩ => show win1_0.index t (1 : Fin 2) * 128 + 1 * k.val = k.val; omega

/-- The feature window's block at point t, at (r, k): the array's entry (2000·t + r, k). -/
theorem blk_feat (c : Dev nD) (t : Fin cfg1.N) (r : Fin 2000) (k : Fin 128) :
    iblk1 (F := Ideal) V c 1 t (ix2 r k) = V c main_v19 (ix2 (rowOf t r) k) := by
  show V c main_v19 (((cfg1.win 1).blk t).view.emb (ix2 r k)) = _
  congr 1
  funext a; apply Fin.ext
  obtain ⟨-, -, e0, e1, -⟩ := block_index t
  match a with
  | ⟨0, _⟩ => show win1_1.index t (0 : Fin 2) * 2000 + 1 * r.val = t.val * 2000 + r.val; omega
  | ⟨1, _⟩ => show win1_1.index t (1 : Fin 2) * 128 + 1 * k.val = k.val; omega

/-- The output window's block at point t holds the array's rows 2000·t … 2000·t + 1999. -/
theorem out_emb (t : Fin cfg1.N) (r : Fin 2000) (j : Fin 128) :
    ((cfg1.win 9).blk t).view.emb (ix2 r j) = ix2 (rowOf t r) j := by
  funext a; apply Fin.ext
  obtain ⟨-, -, -, -, e0, e1, -⟩ := block_index t
  match a with
  | ⟨0, _⟩ => show win1_9.index t (0 : Fin 2) * 2000 + 1 * r.val = t.val * 2000 + r.val; omega
  | ⟨1, _⟩ => show win1_9.index t (1 : Fin 2) * 128 + 1 * j.val = j.val; omega

/-- The left weights' block is the whole matrix at every point. -/
theorem blk_Wl (c : Dev nD) (t : Fin cfg1.N) (k j : Fin 128) :
    iblk1 (F := Ideal) V c 2 t (ix2 k j) = V c main_arg9 (ix2 k j) := by
  show V c main_arg9 (((cfg1.win 2).blk t).view.emb (ix2 k j)) = _
  congr 1
  funext a; apply Fin.ext
  obtain ⟨-, -, -, -, -, -, e0, e1, -⟩ := block_index t
  match a with
  | ⟨0, _⟩ => show win1_2.index t (0 : Fin 2) * 128 + 1 * k.val = k.val; omega
  | ⟨1, _⟩ => show win1_2.index t (1 : Fin 2) * 128 + 1 * j.val = j.val; omega

/-- The right weights' block is the whole matrix at every point. -/
theorem blk_Wr (c : Dev nD) (t : Fin cfg1.N) (k j : Fin 128) :
    iblk1 (F := Ideal) V c 4 t (ix2 k j) = V c main_arg11 (ix2 k j) := by
  show V c main_arg11 (((cfg1.win 4).blk t).view.emb (ix2 k j)) = _
  congr 1
  funext a; apply Fin.ext
  obtain ⟨-, -, -, -, -, -, -, -, e0, e1, -⟩ := block_index t
  match a with
  | ⟨0, _⟩ => show win1_4.index t (0 : Fin 2) * 128 + 1 * k.val = k.val; omega
  | ⟨1, _⟩ => show win1_4.index t (1 : Fin 2) * 128 + 1 * j.val = j.val; omega

/-- The bias block is the whole vector at every point. -/
theorem blk_b (c : Dev nD) (t : Fin cfg1.N) (j : Fin 128) :
    iblk1 (F := Ideal) V c 3 t (ix1 j) = V c main_arg10 (ix1 j) := by
  show V c main_arg10 (((cfg1.win 3).blk t).view.emb (ix1 j)) = _
  congr 1
  funext a; apply Fin.ext
  obtain ⟨-, -, -, -, -, -, -, -, -, -, e, -⟩ := block_index t
  match a with
  | ⟨0, _⟩ => show win1_3.index t (0 : Fin 1) * 128 + 1 * j.val = j.val; omega

/-- The scale block is the whole vector at every point. -/
theorem blk_g (c : Dev nD) (t : Fin cfg1.N) (j : Fin 128) :
    iblk1 (F := Ideal) V c 5 t (ix1 j) = V c main_arg12 (ix1 j) := by
  show V c main_arg12 (((cfg1.win 5).blk t).view.emb (ix1 j)) = _
  congr 1
  funext a; apply Fin.ext
  obtain ⟨-, -, -, -, -, -, -, -, -, -, -, e, -⟩ := block_index t
  match a with
  | ⟨0, _⟩ => show win1_5.index t (0 : Fin 1) * 128 + 1 * j.val = j.val; omega

/-- The shift block is the whole vector at every point. -/
theorem blk_be (c : Dev nD) (t : Fin cfg1.N) (j : Fin 128) :
    iblk1 (F := Ideal) V c 6 t (ix1 j) = V c main_arg13 (ix1 j) := by
  show V c main_arg13 (((cfg1.win 6).blk t).view.emb (ix1 j)) = _
  congr 1
  funext a; apply Fin.ext
  obtain ⟨-, -, -, -, -, -, -, -, -, -, -, -, e, -⟩ := block_index t
  match a with
  | ⟨0, _⟩ => show win1_6.index t (0 : Fin 1) * 128 + 1 * j.val = j.val; omega

/-- The running-mean block is the whole vector at every point. -/
theorem blk_rm (c : Dev nD) (t : Fin cfg1.N) (j : Fin 128) :
    iblk1 (F := Ideal) V c 7 t (ix1 j) = V c main_arg14 (ix1 j) := by
  show V c main_arg14 (((cfg1.win 7).blk t).view.emb (ix1 j)) = _
  congr 1
  funext a; apply Fin.ext
  obtain ⟨-, -, -, -, -, -, -, -, -, -, -, -, -, e, -⟩ := block_index t
  match a with
  | ⟨0, _⟩ => show win1_7.index t (0 : Fin 1) * 128 + 1 * j.val = j.val; omega

/-- The running-variance block is the whole vector at every point. -/
theorem blk_rv (c : Dev nD) (t : Fin cfg1.N) (j : Fin 128) :
    iblk1 (F := Ideal) V c 8 t (ix1 j) = V c main_arg15 (ix1 j) := by
  show V c main_arg15 (((cfg1.win 8).blk t).view.emb (ix1 j)) = _
  congr 1
  funext a; apply Fin.ext
  obtain ⟨-, -, -, -, -, -, -, -, -, -, -, -, -, -, e⟩ := block_index t
  match a with
  | ⟨0, _⟩ => show win1_8.index t (0 : Fin 1) * 128 + 1 * j.val = j.val; omega

/-- What grid point t writes back is block t of the hidden layer of the arrays the region found. -/
theorem flushed_eq (c : Dev nD) (t : Fin cfg1.N) :
    (dat1 (F := Ideal) V c).flushed 9 t = ((cfg1.win 9).blk t).view.read (Elt Ideal)
      (Cert.Sage.hidden (V c main_v26) (V c main_v19) (V c main_arg9) (V c main_arg11) (V c main_arg10)
        (V c main_arg12) (V c main_arg13) (V c main_arg14) (V c main_arg15)) := by
  show (cfg1.win 9).cut (grid1.coords t) ((dat1 V c).after 9 t) = _
  rw [after1_9]
  unfold out1_9
  rw [View.canon_unit_zero zeros2]
  simp only [View.ld_unit_zero (S := S2000x128) zeros2, View.ld_unit_zero (S := S128x128) zeros2, View.ld_unit_zero (S := S128) zeros1]
  funext y
  obtain ⟨r, j, rfl⟩ : ∃ (r : Fin 2000) (j : Fin 128), y = ix2 r j := ⟨y 0, y 1, eq_ix2 y⟩
  show k1_pay1 (F := Ideal) (iblk1 V c 0 t) (iblk1 V c 1 t) (iblk1 V c 2 t) (iblk1 V c 4 t) (iblk1 V c 3 t) (iblk1 V c 5 t)
      (iblk1 V c 8 t) (iblk1 V c 7 t) (iblk1 V c 6 t) (ix2 r j)
    = Cert.Sage.hidden (V c main_v26) (V c main_v19) (V c main_arg9) (V c main_arg11) (V c main_arg10)
        (V c main_arg12) (V c main_arg13) (V c main_arg14) (V c main_arg15) (((cfg1.win 9).blk t).view.emb (ix2 r j))
  rw [out_emb]
  refine (pay_entry _ _ _ _ _ _ _ _ _ r j).trans ?_
  simp only [blk_mean V c t, blk_feat V c t, blk_Wl V c t, blk_Wr V c t, blk_b V c t, blk_g V c t, blk_be V c t,
    blk_rm V c t, blk_rv V c t]
  rfl

/-- An index of the array is in point t's block iff each coordinate is in the block's range on its axis. -/
theorem mem_blk (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v27).slice (win1_9.rect t)).set ↔ _
  rw [View.set_slice_whole, Rect.mem_set_unit]
  exact Iff.rfl

/-- The 50 blocks tile the 100000 rows: row i lies in the block of point ⌊i / 2000⌋, which writes back. -/
theorem covered (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, e0, e1, -⟩ := block_index t
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

end Cert.KernelIdeal.Sage.R1

namespace Cert.KernelIdeal.Sage

theorem region1_arr (V : (c : Dev nD) → (b : Ref sig .tc) → Buf (Elt Ideal) ((c : Thread nD τ).loc b)) (c : Dev nD) :
    (dat1 (F := Ideal) V c).arrAt 9 cfg1.N
      = Cert.Sage.hidden (V c main_v26) (V c main_v19) (V c main_arg9) (V c main_arg11) (V c main_arg10)
          (V c main_arg12) (V c main_arg13) (V c main_arg14) (V c main_arg15) :=
  (dat1 (F := Ideal) V c).arrAt_eq_of_cover 9 _ (fun t _ => R1.flushed_eq V c t) R1.covered

end Cert.KernelIdeal.Sage
-- ==== Proof.Body2.lean ====
/-
  Region 2: what its output array holds when the pipeline has run, as one function of the arrays the region
  found. Each of the 50 grid points writes rows 2000·t … 2000·t + 1999 of the output from the same rows of the
  mean and feature arrays and the whole weight arrays; the 50 blocks tile the 100000 rows. At an entry (r, j) the body's value is the output layer's: two sums over the 128 input features plus the bias, no normalisation.
-/
import proofs.«413179_j13039520710798_1_alg».proof.Proof.Gen.KernelIdeal.Frame
import proofs.«413179_j13039520710798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Sage.R2
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

/-! ## The output layer's product record, axis by axis -/

theorem dotO_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dotO_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem dotO_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem dotO_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One product of the output layer at (r, j): the sum over the 128 input features. -/
theorem prodO_apply {φ₁ φ₂ : FTy} (lhs : FVec Ideal S2000x128 φ₁) (rhs : FVec Ideal S128x64 φ₂) (r : Fin 2000) (j : Fin 64) :
    matmul dot_S2000x128_S128x64_S2000x64_1_0_0_1_n_n none lhs rhs (constant S2000x64 .f32 0x00000000#32) (ix2 r j)
      = ∑ k : Fin 128, lhs (ix2 r k) * rhs (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r j) ((contrEquiv1 dot_S2000x128_S128x64_S2000x64_1_0_0_1_n_n 128 rfl rfl).symm k) = ix2 r k := funext fun a => Fin.ext (by
    match a with
    | ⟨0, _⟩ => exact dotO_lhs_0 _ _
    | ⟨1, _⟩ => exact (dotO_lhs_1 _ _).trans hk)
  have er : dot_S2000x128_S128x64_S2000x64_1_0_0_1_n_n.rhsIdx (ix2 r j) ((contrEquiv1 dot_S2000x128_S128x64_S2000x64_1_0_0_1_n_n 128 rfl rfl).symm k) = ix2 k j := funext fun a => Fin.ext (by
    match a with
    | ⟨0, _⟩ => exact (dotO_rhs_0 _ _).trans hk
    | ⟨1, _⟩ => exact dotO_rhs_1 _ _)
  rw [el, er]

/-- The body's value at row r, column j of its block: the two products' sums over the 128 features, plus the bias. -/
theorem pay2_apply (x0 x1 : Vec Ideal S2000x128 .f32) (Wl Wr : Vec Ideal S128x64 .f32) (b : Vec Ideal S64 .f32)
    (r : Fin 2000) (j : Fin 64) :
    k2_pay1 (F := Ideal) x0 x1 Wl Wr b (ix2 r j)
      = ((∑ k : Fin 128, x0 (ix2 r k) * Wl (ix2 k j)) + (∑ k : Fin 128, x1 (ix2 r k) * Wr (ix2 k j))) + b (ix1 j) := by
  unfold k2_pay1
  rw [addf_apply, addf_apply, prodO_apply, prodO_apply, broadcastTo_1b_ab_apply, shapeCast_a_1a_apply]
  simp only [truncf_apply, shapeCast_self]

theorem zero2 : (![0, 0] : Fin 2 → Nat) = fun _ => 0 := funext fun a => by fin_cases a <;> rfl
theorem zero1 : (![0] : Fin 1 → Nat) = fun _ => 0 := funext fun a => by fin_cases a; rfl

/-- The body's value at (r, j) is the output layer's at array index i, once the two row blocks read the arrays'
    row i 0 at local row r and the column is j. -/
theorem body_at (M X : Cert.Sage.SNxF.Idx → EReal) (Wl Wr : Cert.Sage.SFxO.Idx → EReal) (b : Cert.Sage.SO.Idx → EReal)
    (x0 x1 : Vec Ideal S2000x128 .f32) (i : Cert.Sage.SNxO.Idx) (r : Fin 2000) (j : Fin 64)
    (h0 : ∀ k : Fin 128, x0 (ix2 r k) = M (ix2 (i 0) k)) (h1 : ∀ k : Fin 128, x1 (ix2 r k) = X (ix2 (i 0) k))
    (hj : i 1 = j) :
    k2_pay1 (F := Ideal) x0 x1 Wl Wr b (ix2 r j) = Cert.Sage.outl M X Wl Wr b i := by
  rw [pay2_apply]
  unfold Cert.Sage.outl Cert.Sage.outAt
  subst hj
  simp only [h0, h1]

/-- The printed index maps, decided over the 50 grid points: the mean and feature windows move with the output
    window along the rows and sit at column block 0; the weight and bias windows sit at block 0; the output window's
    row block is the point's number. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The windows' blocks at a grid point, read off the arrays -/

section Blocks
variable (V : (c : Dev nD) → (b : Ref sig .tc) → Buf (Elt Ideal) ((c : Thread nD τ).loc b)) (c : Dev nD) (t : Fin cfg2.N)

/-- The left weights' block at every point is the whole array. -/
theorem blk_Wl : iblk2 (F := Ideal) V c 2 t = V c main_arg16 := by
  obtain ⟨-, -, -, -, e20, e21, -⟩ := idx_facts t
  funext z
  show V c main_arg16 (((cfg2.win 2).blk t).view.emb z) = V c main_arg16 z
  congr 1
  funext a; apply Fin.ext
  match a with
  | ⟨0, _⟩ => show win2_2.index t (0 : Fin 2) * 128 + 1 * (z 0).val = (z 0).val; omega
  | ⟨1, _⟩ => show win2_2.index t (1 : Fin 2) * 64 + 1 * (z 1).val = (z 1).val; omega

/-- The bias' block at every point is the whole vector. -/
theorem blk_b : iblk2 (F := Ideal) V c 3 t = V c main_arg17 := by
  obtain ⟨-, -, -, -, -, -, e30, -⟩ := idx_facts t
  funext z
  show V c main_arg17 (((cfg2.win 3).blk t).view.emb z) = V c main_arg17 z
  congr 1
  funext a; apply Fin.ext
  match a with
  | ⟨0, _⟩ => show win2_3.index t (0 : Fin 1) * 64 + 1 * (z 0).val = (z 0).val; omega

/-- The right weights' block at every point is the whole array. -/
theorem blk_Wr : iblk2 (F := Ideal) V c 4 t = V c main_arg18 := by
  obtain ⟨-, -, -, -, -, -, -, e40, e41, -⟩ := idx_facts t
  funext z
  show V c main_arg18 (((cfg2.win 4).blk t).view.emb z) = V c main_arg18 z
  congr 1
  funext a; apply Fin.ext
  match a with
  | ⟨0, _⟩ => show win2_4.index t (0 : Fin 2) * 128 + 1 * (z 0).val = (z 0).val; omega
  | ⟨1, _⟩ => show win2_4.index t (1 : Fin 2) * 64 + 1 * (z 1).val = (z 1).val; omega

/-- The mean window's block at point t, local row r, reads the array's row (block index)·2000 + r. -/
theorem blk_mean_apply (r : Fin 2000) (k : Fin 128) (i0 : Fin 100000)
    (h : i0.val = win2_5.index t (0 : Fin 2) * 2000 + r.val) :
    iblk2 (F := Ideal) V c 0 t (ix2 r k) = V c main_v34 (ix2 i0 k) := by
  obtain ⟨e00, e01, -⟩ := idx_facts t
  show V c main_v34 (((cfg2.win 0).blk t).view.emb (ix2 r k)) = V c main_v34 (ix2 i0 k)
  congr 1
  funext a; apply Fin.ext
  match a with
  | ⟨0, _⟩ => show win2_0.index t (0 : Fin 2) * 2000 + 1 * r.val = i0.val; omega
  | ⟨1, _⟩ => show win2_0.index t (1 : Fin 2) * 128 + 1 * k.val = k.val; omega

/-- The feature window's block likewise. -/
theorem blk_x_apply (r : Fin 2000) (k : Fin 128) (i0 : Fin 100000)
    (h : i0.val = win2_5.index t (0 : Fin 2) * 2000 + r.val) :
    iblk2 (F := Ideal) V c 1 t (ix2 r k) = V c main_v27 (ix2 i0 k) := by
  obtain ⟨-, -, e10, e11, -⟩ := idx_facts t
  show V c main_v27 (((cfg2.win 1).blk t).view.emb (ix2 r k)) = V c main_v27 (ix2 i0 k)
  congr 1
  funext a; apply Fin.ext
  match a with
  | ⟨0, _⟩ => show win2_1.index t (0 : Fin 2) * 2000 + 1 * r.val = i0.val; omega
  | ⟨1, _⟩ => show win2_1.index t (1 : Fin 2) * 128 + 1 * k.val = k.val; omega

/-- Where the output window's block at point t puts its local entry (r, j) in the array. -/
theorem out_row (r : Fin 2000) (j : Fin 64) :
    ((((cfg2.win 5).blk t).view.emb (ix2 r j)) 0).val = win2_5.index t (0 : Fin 2) * 2000 + r.val := by
  show win2_5.index t (0 : Fin 2) * 2000 + 1 * r.val = _; omega
theorem out_col (r : Fin 2000) (j : Fin 64) :
    ((((cfg2.win 5).blk t).view.emb (ix2 r j)) 1).val = j.val := by
  obtain ⟨-, -, -, -, -, -, -, -, -, -, e51⟩ := idx_facts t
  show win2_5.index t (1 : Fin 2) * 64 + 1 * j.val = _; omega

theorem flushed_eq :
    (dat2 (F := Ideal) V c).flushed 5 t
      = ((cfg2.win 5).blk t).view.read (Elt Ideal) (Cert.Sage.outl (V c main_v34) (V c main_v27) (V c main_arg16) (V c main_arg18) (V c main_arg17)) := by
  show (cfg2.win 5).cut (grid2.coords t) ((dat2 V c).after 5 t) = _
  rw [after2_5]
  unfold out2_5
  rw [View.canon_unit_zero zero2]
  simp only [View.ld_unit_zero (S := S2000x128) zero2, View.ld_unit_zero (S := S128x64) zero2, View.ld_unit_zero (S := S64) zero1]
  rw [blk_Wl, blk_Wr, blk_b]
  funext y
  obtain ⟨r, j, rfl⟩ : ∃ (r : Fin 2000) (j : Fin 64), y = ix2 r j := ⟨y 0, y 1, eq_ix2 y⟩
  show k2_pay1 (F := Ideal) (iblk2 V c 0 t) (iblk2 V c 1 t) (V c main_arg16) (V c main_arg18) (V c main_arg17) (ix2 r j)
    = Cert.Sage.outl (V c main_v34) (V c main_v27) (V c main_arg16) (V c main_arg18) (V c main_arg17) (((cfg2.win 5).blk t).view.emb (ix2 r j))
  exact body_at _ _ _ _ _ _ _ _ r j (fun k => blk_mean_apply V c t r k _ (out_row t r j)) (fun k => blk_x_apply V c t r k _ (out_row t r j))
    (Fin.ext (out_col t r j))

end Blocks

/-! ## From the blocks to the array -/

/-- An index of the output array is in point t's block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v35).slice (win2_5.rect t)).set ↔ _
  rw [View.set_slice_whole, Rect.mem_set_unit]
  exact Iff.rfl

/-- The 50 row blocks tile the 100000 rows: row i lies in the block of point ⌊i / 2000⌋, which writes back. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  have hlt : (i 0).val / 2000 < cfg2.N := by rw [hN]; omega
  obtain ⟨-, -, -, -, -, -, -, -, -, e50, e51⟩ := idx_facts ⟨(i 0).val / 2000, hlt⟩
  have e50' : win2_5.index ⟨(i 0).val / 2000, hlt⟩ (0 : Fin 2) = (i 0).val / 2000 := e50
  refine ⟨⟨(i 0).val / 2000, hlt⟩, flush2_5 _, ?_⟩
  rw [mem_blk]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    omega
  | ⟨1, _⟩ =>
    show win2_5.index ⟨(i 0).val / 2000, hlt⟩ (1 : Fin 2) * 64 ≤ (i 1).val ∧ (i 1).val < win2_5.index ⟨(i 0).val / 2000, hlt⟩ (1 : Fin 2) * 64 + 64
    omega

end Cert.KernelIdeal.Sage.R2

namespace Cert.KernelIdeal.Sage
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

theorem region2_arr (V : (c : Dev nD) → (b : Ref sig .tc) → Buf (Elt Ideal) ((c : Thread nD τ).loc b)) (c : Dev nD) :
    (dat2 (F := Ideal) V c).arrAt 5 cfg2.N
      = Cert.Sage.outl (V c main_v34) (V c main_v27) (V c main_arg16) (V c main_arg18) (V c main_arg17) :=
  (dat2 (F := Ideal) V c).arrAt_eq_of_cover 5 _ (fun t _ => R2.flushed_eq V c t) R2.cover

end Cert.KernelIdeal.Sage
-- ==== Proof.ValueK.lean ====
/-
  The kernel's result array is the three layers of the specification: the last boundary's contents at the
  result buffer are what region 2's pipeline leaves, the output layer of the mean it found and region 1's output;
  region 1's output the hidden layer of the mean it found and region 0's output; region 0's the hidden layer of
  the mean of the input features; and on the evident domain each mean the kernel's host code built is the
  reference's neighbour mean of the same features.
-/
import proofs.«413179_j13039520710798_1_alg».proof.Proof.HostK
import proofs.«413179_j13039520710798_1_alg».proof.Proof.HostKeep
import proofs.«413179_j13039520710798_1_alg».proof.Proof.Body0
import proofs.«413179_j13039520710798_1_alg».proof.Proof.Body1
import proofs.«413179_j13039520710798_1_alg».proof.Proof.Body2

set_option maxRecDepth 16384
noncomputable section
namespace Cert.KernelIdeal.Sage
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Region 0's output array: the first hidden layer. -/
theorem out0_eq (c : Dev nD) (hr : Cert.Sage.InRange (m ((c : Thread nD τ).loc main_arg1))) :
    V4 m ρ c main_v19 = Cert.Sage.H0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : V4 m ρ c main_v19 = (dat0 (V3 m ρ) c).arrAt 9 cfg0.N := W4_arr m ρ c 9
  rw [e, region0_arr (V3 m ρ) c, entry0_mean, v3_arg0, v3_arg2, v3_arg3, v3_arg4, v3_arg5, v3_arg6, v3_arg7, v3_arg8,
    meanKer_eq _ _ hr]
  rfl

/-- Region 1's output array: the second hidden layer, of the first's output. -/
theorem out1_eq (c : Dev nD) (hr : Cert.Sage.InRange (m ((c : Thread nD τ).loc main_arg1))) :
    V7 m ρ c main_v27 = Cert.Sage.hidden (Cert.Sage.meanRef (V4 m ρ c main_v19) (m ((c : Thread nD τ).loc main_arg1))) (V4 m ρ c main_v19)
      (m ((c : Thread nD τ).loc main_arg9)) (m ((c : Thread nD τ).loc main_arg11)) (m ((c : Thread nD τ).loc main_arg10)) (m ((c : Thread nD τ).loc main_arg12)) (m ((c : Thread nD τ).loc main_arg13)) (m ((c : Thread nD τ).loc main_arg14)) (m ((c : Thread nD τ).loc main_arg15)) := by
  have e : V7 m ρ c main_v27 = (dat1 (V6 m ρ) c).arrAt 9 cfg1.N := W7_arr m ρ c 9
  rw [e, region1_arr (V6 m ρ) c, entry1_mean, entry1_x, v6_arg9, v6_arg10, v6_arg11, v6_arg12, v6_arg13, v6_arg14, v6_arg15,
    meanKer_eq _ _ hr]

/-- The result array at the last boundary: the output layer, of the second hidden layer's output. -/
theorem out2_eq (c : Dev nD) (hr : Cert.Sage.InRange (m ((c : Thread nD τ).loc main_arg1))) :
    W10 m ρ c (Proc.devRef .tc main_v35) = Cert.Sage.outl (Cert.Sage.meanRef (V7 m ρ c main_v27) (m ((c : Thread nD τ).loc main_arg1))) (V7 m ρ c main_v27)
      (m ((c : Thread nD τ).loc main_arg16)) (m ((c : Thread nD τ).loc main_arg18)) (m ((c : Thread nD τ).loc main_arg17)) := by
  have e : W10 m ρ c (Proc.devRef .tc main_v35) = (dat2 (V9 m ρ) c).arrAt 5 cfg2.N := W10_arr m ρ c 5
  rw [e, region2_arr (V9 m ρ) c, entry2_mean, entry2_x, v9_arg16, v9_arg17, v9_arg18, meanKer_eq _ _ hr]

/-- The kernel's result array is the specification's function of the arguments. -/
theorem value (c : Dev nD) (hr : Cert.Sage.InRange (m ((c : Thread nD τ).loc main_arg1))) :
    W10 m ρ c (Proc.devRef .tc main_v35)
      = Cert.Sage.G (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18)) := by
  rw [out2_eq m ρ c hr, out1_eq m ρ c hr, out0_eq m ρ c hr]
  rfl

end Cert.KernelIdeal.Sage
-- ==== Proof.RefValue.lean ====
/-
  The reference's result array is the three layers of the specification. Each of its layers is
  (mean·Wl + b) + x·Wr where the specification groups (mean·Wl + x·Wr) + b: one extended real, addition being
  commutative and associative; its matrix products are sums over the 128 input features, its neighbour mean the
  specification's by definition, its normalisation and clip the specification's term for term.
-/
import proofs.«413179_j13039520710798_1_alg».proof.Proof.Gen.ReferenceIdeal.Run
import proofs.«413179_j13039520710798_1_alg».proof.Proof.Gen.ReferenceIdeal.Read
import proofs.«413179_j13039520710798_1_alg».proof.Proof.Mean

set_option maxRecDepth 16384
noncomputable section
namespace Cert.Sage.Ref
open Idealize.ShloMosaic Idealize.ShloMosaic.ValueIdx Cert.ReferenceIdeal Cert.ReferenceIdeal.Read

/-! ## The three neighbour means

Each mean of the reference is the quotient of two scatter-sums over the edge list. Unfolding its stages down to the
arguments gives, operation for operation, the specification's mean of the array the gather reads. -/

/-- The first mean is the specification's mean of the input features. -/
theorem mean0 (x0 : FVec Ideal S100000x128 .f32) (x1 : IVec S2x1600000 32) :
    val_main_v22 (F := Ideal) x0 x1 = Cert.Sage.meanRef x0 x1 := by
  unfold val_main_v22 val_main_v21 val_main_v20 val_main_v19 val_main_v18 val_main_v17 val_main_v16 val_main_v15
    val_main_v14 val_main_v13 val_main_v12 val_main_v11 val_main_v10 val_main_v9 val_main_v8 val_main_v7 val_main_v6
    val_main_v5 val_main_v4 val_main_v3 val_main_v2 val_main_v1 val_main_v0
    val_main_c val_main_c_0 val_main_cst val_main_cst_1 val_main_cst_2 val_main_cst_3
  unfold Cert.Sage.meanRef Cert.Sage.aggRef Cert.Sage.cntRef Cert.Sage.wrapOf Cert.Sage.dstOf Cert.Sage.srcOf
  rfl

/-- The second mean is the specification's mean of the first hidden layer's array. -/
theorem mean1 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) :
    val_main_v61 (F := Ideal) x0 x1 x2 x3 x4 x5 x6 x7 x8
      = Cert.Sage.meanRef (val_main_v42 (F := Ideal) x0 x1 x2 x3 x4 x5 x6 x7 x8) x1 := by
  unfold val_main_v61 val_main_v60 val_main_v59 val_main_v58 val_main_v57 val_main_v56 val_main_v55 val_main_v54
    val_main_v53 val_main_v52 val_main_v51 val_main_v50 val_main_v49 val_main_v48 val_main_v47 val_main_v46 val_main_v45
    val_main_v44 val_main_v43 val_main_v3 val_main_v2 val_main_v1 val_main_v0
    val_main_c_5 val_main_c_6 val_main_cst_7 val_main_cst_8 val_main_cst_9 val_main_cst_10
  unfold Cert.Sage.meanRef Cert.Sage.aggRef Cert.Sage.cntRef Cert.Sage.wrapOf Cert.Sage.dstOf Cert.Sage.srcOf
  rfl

/-- The third mean is the specification's mean of the second hidden layer's array. -/
theorem mean2 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) :
    val_main_v100 (F := Ideal) x0 x1 x2 x3 x4 x5 x6 x7 x8 x9 x10 x11 x12 x13 x14 x15
      = Cert.Sage.meanRef (val_main_v81 (F := Ideal) x0 x1 x2 x3 x4 x5 x6 x7 x8 x9 x10 x11 x12 x13 x14 x15) x1 := by
  unfold val_main_v100 val_main_v99 val_main_v98 val_main_v97 val_main_v96 val_main_v95 val_main_v94 val_main_v93
    val_main_v92 val_main_v91 val_main_v90 val_main_v89 val_main_v88 val_main_v87 val_main_v86 val_main_v85 val_main_v84
    val_main_v83 val_main_v82 val_main_v3 val_main_v2 val_main_v1 val_main_v0
    val_main_c_12 val_main_c_13 val_main_cst_14 val_main_cst_15 val_main_cst_16 val_main_cst_17
  unfold Cert.Sage.meanRef Cert.Sage.aggRef Cert.Sage.cntRef Cert.Sage.wrapOf Cert.Sage.dstOf Cert.Sage.srcOf
  rfl

/-! ## The layers, index by index

At node r and feature j every stage of a layer reads its operands at one index: the two matrix products are sums over
the 128 input features of a row of the left operand against a column of the weights, the per-feature vectors are read
at j through their two broadcasts, and the clip's zero array is the float word zero. What is left differs from the
specification's term only in the grouping of three summands. -/

/-- The first hidden layer at node r, feature j, over the reference's own first mean. -/
theorem layer0_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (r : Fin 100000) (j : Fin 128) :
    val_main_v42 (F := Ideal) x0 x1 x2 x3 x4 x5 x6 x7 x8 (ix2 r j)
      = Cert.Sage.hiddenAt (val_main_v22 (F := Ideal) x0 x1) x0 x2 x4 x3 x5 x6 x7 x8 r j := by
  rw [val_main_v42_apply, val_main_v41_apply, val_main_v38_apply, val_main_v31_apply, val_main_v28_apply,
    val_main_v26_apply, val_main_v23_apply, val_main_v25_apply, val_main_v24_apply, val_main_v27_apply,
    val_main_v30_apply, val_main_v29_apply, val_main_v37_apply, val_main_v36_apply, val_main_v35_apply,
    val_main_v34_apply, val_main_v33_apply, val_main_v32_apply, val_main_cst_4_apply, val_main_v40_apply,
    val_main_v39_apply, val_main_call0_v0_apply, val_main_call0_cst_apply]
  generalize val_main_v22 (F := Ideal) x0 x1 = m
  -- the products' rows and columns
  have hl : ∀ k : Fin 128, lidx_main_v23 (ix2 r j) k = ix2 r k := fun k => funext fun a => by
    match a with
    | ⟨0, _⟩ => rfl
    | ⟨1, _⟩ => rfl
  have hr : ∀ k : Fin 128, ridx_main_v23 (ix2 r j) k = ix2 k j := fun k => funext fun a => by
    match a with
    | ⟨0, _⟩ => rfl
    | ⟨1, _⟩ => rfl
  have hl' : ∀ k : Fin 128, lidx_main_v27 (ix2 r j) k = ix2 r k := fun k => funext fun a => by
    match a with
    | ⟨0, _⟩ => rfl
    | ⟨1, _⟩ => rfl
  have hr' : ∀ k : Fin 128, ridx_main_v27 (ix2 r j) k = ix2 k j := fun k => funext fun a => by
    match a with
    | ⟨0, _⟩ => rfl
    | ⟨1, _⟩ => rfl
  -- bias, running mean, scale and shift are read at the feature
  have hb : idx_main_v24 (idx_main_v25 (ix2 r j)) = ix1 j := funext fun a => by
    match a with
    | ⟨0, _⟩ => rfl
  have hrm : idx_main_v29 (idx_main_v30 (ix2 r j)) = ix1 j := funext fun a => by
    match a with
    | ⟨0, _⟩ => rfl
  have hg : idx_main_v36 (idx_main_v37 (ix2 r j)) = ix1 j := funext fun a => by
    match a with
    | ⟨0, _⟩ => rfl
  have hbe : idx_main_v39 (idx_main_v40 (ix2 r j)) = ix1 j := funext fun a => by
    match a with
    | ⟨0, _⟩ => rfl
  simp only [hl, hr, hl', hr', hb, hrm, hg, hbe, Ideal.addf_def, Ideal.subf_def, Ideal.mulf_def, Ideal.maximumf_def,
    Ideal.hostUnary_rsqrt_def, Ideal.ofBits_def, Ideal.ofBits_zero_f32]
  unfold Cert.Sage.hiddenAt Cert.Sage.epsv
  rw [add_right_comm]

/-- The first hidden layer as one array. -/
theorem layer0 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) :
    val_main_v42 (F := Ideal) x0 x1 x2 x3 x4 x5 x6 x7 x8
      = Cert.Sage.hidden (val_main_v22 (F := Ideal) x0 x1) x0 x2 x4 x3 x5 x6 x7 x8 := by
  funext i
  rw [eq_ix2 i]
  exact layer0_at x0 x1 x2 x3 x4 x5 x6 x7 x8 (i 0) (i 1)

/-- The second hidden layer at node r, feature j, over the reference's own second mean and its first layer. -/
theorem layer1_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (r : Fin 100000) (j : Fin 128) :
    val_main_v81 (F := Ideal) x0 x1 x2 x3 x4 x5 x6 x7 x8 x9 x10 x11 x12 x13 x14 x15 (ix2 r j)
      = Cert.Sage.hiddenAt (val_main_v61 (F := Ideal) x0 x1 x2 x3 x4 x5 x6 x7 x8)
          (val_main_v42 (F := Ideal) x0 x1 x2 x3 x4 x5 x6 x7 x8) x9 x11 x10 x12 x13 x14 x15 r j := by
  rw [val_main_v81_apply, val_main_v80_apply, val_main_v77_apply, val_main_v70_apply, val_main_v67_apply,
    val_main_v65_apply, val_main_v62_apply, val_main_v64_apply, val_main_v63_apply, val_main_v66_apply,
    val_main_v69_apply, val_main_v68_apply, val_main_v76_apply, val_main_v75_apply, val_main_v74_apply,
    val_main_v73_apply, val_main_v72_apply, val_main_v71_apply, val_main_cst_11_apply, val_main_v79_apply,
    val_main_v78_apply, val_main_call1_v0_apply, val_main_call1_cst_apply]
  generalize val_main_v61 (F := Ideal) x0 x1 x2 x3 x4 x5 x6 x7 x8 = m
  generalize val_main_v42 (F := Ideal) x0 x1 x2 x3 x4 x5 x6 x7 x8 = h
  have hl : ∀ k : Fin 128, lidx_main_v62 (ix2 r j) k = ix2 r k := fun k => funext fun a => by
    match a with
    | ⟨0, _⟩ => rfl
    | ⟨1, _⟩ => rfl
  have hr : ∀ k : Fin 128, ridx_main_v62 (ix2 r j) k = ix2 k j := fun k => funext fun a => by
    match a with
    | ⟨0, _⟩ => rfl
    | ⟨1, _⟩ => rfl
  have hl' : ∀ k : Fin 128, lidx_main_v66 (ix2 r j) k = ix2 r k := fun k => funext fun a => by
    match a with
    | ⟨0, _⟩ => rfl
    | ⟨1, _⟩ => rfl
  have hr' : ∀ k : Fin 128, ridx_main_v66 (ix2 r j) k = ix2 k j := fun k => funext fun a => by
    match a with
    | ⟨0, _⟩ => rfl
    | ⟨1, _⟩ => rfl
  have hb : idx_main_v63 (idx_main_v64 (ix2 r j)) = ix1 j := funext fun a => by
    match a with
    | ⟨0, _⟩ => rfl
  have hrm : idx_main_v68 (idx_main_v69 (ix2 r j)) = ix1 j := funext fun a => by
    match a with
    | ⟨0, _⟩ => rfl
  have hg : idx_main_v75 (idx_main_v76 (ix2 r j)) = ix1 j := funext fun a => by
    match a with
    | ⟨0, _⟩ => rfl
  have hbe : idx_main_v78 (idx_main_v79 (ix2 r j)) = ix1 j := funext fun a => by
    match a with
    | ⟨0, _⟩ => rfl
  simp only [hl, hr, hl', hr', hb, hrm, hg, hbe, Ideal.addf_def, Ideal.subf_def, Ideal.mulf_def, Ideal.maximumf_def,
    Ideal.hostUnary_rsqrt_def, Ideal.ofBits_def, Ideal.ofBits_zero_f32]
  unfold Cert.Sage.hiddenAt Cert.Sage.epsv
  rw [add_right_comm]

/-- The second hidden layer as one array. -/
theorem layer1 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) :
    val_main_v81 (F := Ideal) x0 x1 x2 x3 x4 x5 x6 x7 x8 x9 x10 x11 x12 x13 x14 x15
      = Cert.Sage.hidden (val_main_v61 (F := Ideal) x0 x1 x2 x3 x4 x5 x6 x7 x8)
          (val_main_v42 (F := Ideal) x0 x1 x2 x3 x4 x5 x6 x7 x8) x9 x11 x10 x12 x13 x14 x15 := by
  funext i
  rw [eq_ix2 i]
  exact layer1_at x0 x1 x2 x3 x4 x5 x6 x7 x8 x9 x10 x11 x12 x13 x14 x15 (i 0) (i 1)

/-- The output layer at node r, feature j, over the reference's own third mean and its second layer: no
    normalisation and no clip, so only the two products and the bias are read. -/
theorem layer2_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (x16 : FVec Ideal S128x64 .f32) (x17 : FVec Ideal S64 .f32)
    (x18 : FVec Ideal S128x64 .f32) (r : Fin 100000) (j : Fin 64) :
    val_main_v106 (F := Ideal) x0 x1 x2 x3 x4 x5 x6 x7 x8 x9 x10 x11 x12 x13 x14 x15 x16 x17 x18 (ix2 r j)
      = Cert.Sage.outAt (val_main_v100 (F := Ideal) x0 x1 x2 x3 x4 x5 x6 x7 x8 x9 x10 x11 x12 x13 x14 x15)
          (val_main_v81 (F := Ideal) x0 x1 x2 x3 x4 x5 x6 x7 x8 x9 x10 x11 x12 x13 x14 x15) x16 x18 x17 r j := by
  rw [val_main_v106_apply, val_main_v104_apply, val_main_v101_apply, val_main_v103_apply, val_main_v102_apply,
    val_main_v105_apply]
  generalize val_main_v100 (F := Ideal) x0 x1 x2 x3 x4 x5 x6 x7 x8 x9 x10 x11 x12 x13 x14 x15 = m
  generalize val_main_v81 (F := Ideal) x0 x1 x2 x3 x4 x5 x6 x7 x8 x9 x10 x11 x12 x13 x14 x15 = h
  have hl : ∀ k : Fin 128, lidx_main_v101 (ix2 r j) k = ix2 r k := fun k => funext fun a => by
    match a with
    | ⟨0, _⟩ => rfl
    | ⟨1, _⟩ => rfl
  have hr : ∀ k : Fin 128, ridx_main_v101 (ix2 r j) k = ix2 k j := fun k => funext fun a => by
    match a with
    | ⟨0, _⟩ => rfl
    | ⟨1, _⟩ => rfl
  have hl' : ∀ k : Fin 128, lidx_main_v105 (ix2 r j) k = ix2 r k := fun k => funext fun a => by
    match a with
    | ⟨0, _⟩ => rfl
    | ⟨1, _⟩ => rfl
  have hr' : ∀ k : Fin 128, ridx_main_v105 (ix2 r j) k = ix2 k j := fun k => funext fun a => by
    match a with
    | ⟨0, _⟩ => rfl
    | ⟨1, _⟩ => rfl
  have hb : idx_main_v102 (idx_main_v103 (ix2 r j)) = ix1 j := funext fun a => by
    match a with
    | ⟨0, _⟩ => rfl
  simp only [hl, hr, hl', hr', hb, Ideal.addf_def]
  unfold Cert.Sage.outAt
  rw [add_right_comm]

/-- The output layer as one array. -/
theorem layer2 (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (x16 : FVec Ideal S128x64 .f32) (x17 : FVec Ideal S64 .f32)
    (x18 : FVec Ideal S128x64 .f32) :
    val_main_v106 (F := Ideal) x0 x1 x2 x3 x4 x5 x6 x7 x8 x9 x10 x11 x12 x13 x14 x15 x16 x17 x18
      = Cert.Sage.outl (val_main_v100 (F := Ideal) x0 x1 x2 x3 x4 x5 x6 x7 x8 x9 x10 x11 x12 x13 x14 x15)
          (val_main_v81 (F := Ideal) x0 x1 x2 x3 x4 x5 x6 x7 x8 x9 x10 x11 x12 x13 x14 x15) x16 x18 x17 := by
  funext i
  rw [eq_ix2 i]
  exact layer2_at x0 x1 x2 x3 x4 x5 x6 x7 x8 x9 x10 x11 x12 x13 x14 x15 x16 x17 x18 (i 0) (i 1)

/-! ## The whole network -/

/-- The reference's result is the specification's network: each layer is the specification's layer of the mean and
    of the layer below it, and each mean is the specification's mean of the layer below it. -/
theorem ref_value (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (x16 : FVec Ideal S128x64 .f32) (x17 : FVec Ideal S64 .f32)
    (x18 : FVec Ideal S128x64 .f32) :
    Cert.ReferenceIdeal.Read.val_main_v106 (F := Ideal) x0 x1 x2 x3 x4 x5 x6 x7 x8 x9 x10 x11 x12 x13 x14 x15 x16 x17 x18 = Cert.Sage.G x0 x1 x2 x3 x4 x5 x6 x7 x8 x9 x10 x11 x12 x13 x14 x15 x16 x17 x18 := by
  unfold Cert.Sage.G Cert.Sage.H0
  rw [layer2, mean2, layer1, mean1, layer0, mean0]

end Cert.Sage.Ref
-- ==== Proof.PreRange.lean ====
/-
  What the precondition says of the edge list. Its last two conjuncts are the two and-reductions over all edges of
  "source ≥ −100000" and "source < 100000"; a reduction by `and` that came out 1 met only 1s, and a signed
  comparison that is 1 is the inequality of the words' integer values.
-/
import proofs.«413179_j13039520710798_1_alg».proof.Proof.Gen.Pre_finite_inputs
import proofs.«413179_j13039520710798_1_alg».proof.Proof.Gen.ReferenceIdeal
import proofs.«413179_j13039520710798_1_alg».proof.Proof.Mean
import Idealize.ShloMosaic.Lib.ReduceAll

noncomputable section
namespace Cert.Sage
open Idealize.ShloMosaic Cert.ReferenceIdeal

theorem inRange_of_pre (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S128x128 .f32) (x10 : FVec Ideal S128 .f32)
    (x11 : FVec Ideal S128x128 .f32) (x12 x13 x14 x15 : FVec Ideal S128 .f32) (x16 : FVec Ideal S128x64 .f32) (x17 : FVec Ideal S64 .f32)
    (x18 : FVec Ideal S128x64 .f32)
    (h : Cert.Pre_finite_inputs.fn (F := Ideal) x0 x1 x2 x3 x4 x5 x6 x7 x8 x9 x10 x11 x12 x13 x14 x15 x16 x17 x18 = fun _ => 1#1) : InRange x1 := by
  -- the claim at the scalar result's one index, the chain of definitions opened
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- the result is a left-nested conjunction: its last conjunct is the "< 100000" reduction, the one before it "≥ −100000"
  obtain ⟨h12, hC⟩ := IntOp.andi_eq_one.1 (show IntOp.andi _ _ = 1#1 from h0)
  obtain ⟨-, hB⟩ := IntOp.andi_eq_one.1 (show IntOp.andi _ _ = 1#1 from h12)
  haveI : Subsingleton Cert.Pre_finite_inputs.S_.Idx := ⟨fun _ _ => funext fun d => d.elim0⟩
  intro e
  -- an and-reduction over all edges that is 1 met a 1 at every edge; the scalar's broadcast reads the scalar
  have hge : IntOp.cmpi .sge (srcOf x1 e) 4294867296#32 = 1#1 := Host.reduce_andi_all _ _ _ _ _ hB e
  have hlt : IntOp.cmpi .slt (srcOf x1 e) 100000#32 = 1#1 := Host.reduce_andi_all _ _ _ _ _ hC e
  -- a signed comparison that is 1 is the inequality of the integer values; 4294867296 is −100000 as a signed word
  have hm : (4294867296#32 : BitVec 32).toInt = -100000 := by decide
  have hK : (100000#32 : BitVec 32).toInt = 100000 := by decide
  rw [IntOp.cmpi_sge, hm] at hge
  rw [IntOp.cmpi_slt, hK] at hlt
  exact ⟨hge, hlt⟩

end Cert.Sage
-- ==== Proof.lean ====
/-
  Three SAGE layers over a graph of 100000 nodes and 1600000 edges: a Pallas kernel per layer's dense part
  (the two matrix products, bias, and for the hidden layers the running-statistics normalisation and the clip at 0),
  the neighbour mean in host code between them, against one jnp reference.

  On the extended reals the two programs compute one function of the arguments, `Cert.Sage.G`: layer by layer
  the kernel's (mean·Wl + x·Wr) + b is the reference's (mean·Wl + b) + x·Wr, the changes of float format are the
  identity, the kernel's mean (summed messages times 1 / max(count, 1)) is the reference's (summed messages over
  max(count, 1)) because max(count, 1) is never zero, and the kernel's take, which fills a row where the source
  index leaves the table, agrees with the reference's gather on the evident domain −100000 ≤ source < 100000,
  where every wrapped index lies in the table. That domain is the precondition's added conjunct; the finiteness
  of the float inputs is not used.

  The frames of the two kernel programs are their generated frames; the reference's frame is its run with the
  result dropped; the ideal pass rewrote nothing, so there is nothing to preserve.
-/
import proofs.«413179_j13039520710798_1_alg».proof.Defs
import proofs.«413179_j13039520710798_1_alg».proof.Proof.Gen.Kernel.Frame
import proofs.«413179_j13039520710798_1_alg».proof.Proof.Gen.KernelIdeal.Frame
import proofs.«413179_j13039520710798_1_alg».proof.Proof.Gen.ReferenceIdeal.Run
import proofs.«413179_j13039520710798_1_alg».proof.Proof.Gen.ReferenceIdeal.Read
import proofs.«413179_j13039520710798_1_alg».proof.Proof.Gen.Pre_finite_inputs
import proofs.«413179_j13039520710798_1_alg».proof.Proof.RunK
import proofs.«413179_j13039520710798_1_alg».proof.Proof.ValueK
import proofs.«413179_j13039520710798_1_alg».proof.Proof.RefValue
import proofs.«413179_j13039520710798_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the result array at `G` of the arguments, which agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hr : ∀ c : Dev Cert.KernelIdeal.nD, Cert.Sage.InRange (m ((c.tc : Thread Cert.KernelIdeal.nD Cert.KernelIdeal.τ).loc Cert.KernelIdeal.main_arg1)) :=
    fun c => Cert.Sage.inRange_of_pre _ _ _ _ _ _ _ _ _ _ _ _ _ _ _ _ _ _ _ (hpre c)
  refine ⟨fun c => Cert.Sage.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Sage.value m ρ c (hr c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v106_eq, Cert.Sage.Ref.ref_value, h0, h1, h2, h3, h4, h5, h6, h7, h8, h9, h10, h11,
      h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
